-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S64 : Shape := ⟨1, ![64]⟩
abbrev S10x768x128 : Shape := ⟨3, ![10, 768, 128]⟩
abbrev S10x128 : Shape := ⟨2, ![10, 128]⟩
abbrev S768x128 : Shape := ⟨2, ![768, 128]⟩
abbrev S128 : Shape := ⟨1, ![128]⟩
abbrev S256x4 : Shape := ⟨2, ![256, 4]⟩
abbrev S4 : Shape := ⟨1, ![4]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S10x768x128 : S_.BroadcastsInDim S10x768x128 (![] : Fin 0 → Fin S10x768x128.rank)
  reducesTo_S10x768x128_S_d0_1_2 : S10x768x128.ReducesTo [0, 1, 2] S_
  bcast_S_S10x128 : S_.BroadcastsInDim S10x128 (![] : Fin 0 → Fin S10x128.rank)
  reducesTo_S10x128_S_d0_1 : S10x128.ReducesTo [0, 1] S_
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_arg1 : IVec S64 32) (main_v33 : IVec S_ 1) : IVec S_ 1 :=
  let main_c_12 : IVec S_ 32 := constantI S_ 32 0#32
  let main_v34 : IVec S64 32 := broadcastInDim S64 ![] bcast_S_S64 main_c_12
  let main_v35 : IVec S64 1 := cmpi .sge main_arg1 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v33 main_v36
  let main_c_14 : IVec S_ 32 := constantI S_ 32 10#32
  let main_v38 : IVec S64 32 := broadcastInDim S64 ![] bcast_S_S64 main_c_14
  let main_v39 : IVec S64 1 := cmpi .slt main_arg1 main_v38
  let main_c_15 : IVec S_ 1 := constantI S_ 1 1#1
  let main_v40 : IVec S_ 1 := (fun x v => Host.reduce IntOp.andi x v reducesTo_S64_S_d0 h_S_) main_v39 main_c_15
  let main_v41 : IVec S_ 1 := andi main_v37 main_v40
  main_v41

def fn_part1 {F : FTy → Type} [FloatOps F] (main_arg1 : IVec S64 32) (main_arg5 : FVec F S128 .f32) (main_arg6 : FVec F S256x4 .f32) (main_arg7 : FVec F S4 .f32) (main_v13 : IVec S_ 1) (main_v16 : IVec S768x128 1) : IVec S_ 1 :=
  let main_c_5 : IVec S_ 1 := constantI S_ 1 1#1
  let main_v17 : IVec S_ 1 := (fun x v => Host.reduce IntOp.andi x v reducesTo_S768x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x4 .f32 := Host.absf main_arg6
  let main_cst_8 : FVec F S_ .f32 := constant S_ .f32 0x7F800000#32
  let main_v25 : FVec F S256x4 .f32 := broadcastInDim S256x4 ![] bcast_S_S256x4 main_cst_8
  let main_v26 : IVec S256x4 1 := cmpf .olt main_v24 main_v25
  let main_c_9 : IVec S_ 1 := constantI S_ 1 1#1
  let main_v27 : IVec S_ 1 := (fun x v => Host.reduce IntOp.andi x v reducesTo_S256x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg1 main_v33

def fn {F : FTy → Type} [FloatOps F] (main_arg0 : FVec F S64x512x768 .f32) (main_arg1 : IVec S64 32) (main_arg2 : FVec F S10x768x128 .f32) (main_arg3 : FVec F S10x128 .f32) (main_arg4 : FVec F S768x128 .f32) (main_arg5 : FVec F S128 .f32) (main_arg6 : FVec F S256x4 .f32) (main_arg7 : FVec F S4 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S10x768x128 .f32 := Host.absf main_arg2
  let main_cst_0 : FVec F S_ .f32 := constant S_ .f32 0x7F800000#32
  let main_v5 : FVec F S10x768x128 .f32 := broadcastInDim S10x768x128 ![] bcast_S_S10x768x128 main_cst_0
  let main_v6 : IVec S10x768x128 1 := cmpf .olt main_v4 main_v5
  let main_c_1 : IVec S_ 1 := constantI S_ 1 1#1
  let main_v7 : IVec S_ 1 := (fun x v => Host.reduce IntOp.andi x v reducesTo_S10x768x128_S_d0_1_2 h_S_) main_v6 main_c_1
  let main_v8 : IVec S_ 1 := andi main_v3 main_v7
  let main_v9 : FVec F S10x128 .f32 := Host.absf main_arg3
  let main_cst_2 : FVec F S_ .f32 := constant S_ .f32 0x7F800000#32
  let main_v10 : FVec F S10x128 .f32 := broadcastInDim S10x128 ![] bcast_S_S10x128 main_cst_2
  let main_v11 : IVec S10x128 1 := cmpf .olt main_v9 main_v10
  let main_c_3 : IVec S_ 1 := constantI S_ 1 1#1
  let main_v12 : IVec S_ 1 := (fun x v => Host.reduce IntOp.andi x v reducesTo_S10x128_S_d0_1 h_S_) main_v11 main_c_3
  let main_v13 : IVec S_ 1 := andi main_v8 main_v12
  let main_v14 : FVec F S768x128 .f32 := Host.absf main_arg4
  let main_cst_4 : FVec F S_ .f32 := constant S_ .f32 0x7F800000#32
  let main_v15 : FVec F S768x128 .f32 := broadcastInDim S768x128 ![] bcast_S_S768x128 main_cst_4
  let main_v16 : IVec S768x128 1 := cmpf .olt main_v14 main_v15
  fn_part1 (F := F) main_arg1 main_arg5 main_arg6 main_arg7 main_v13 main_v16
-- ==== Kernel.lean ====
abbrev S64x512x768 : Shape := ⟨3, ![64, 512, 768]⟩
abbrev S64 : Shape := ⟨1, ![64]⟩
abbrev S10x768x128 : Shape := ⟨3, ![10, 768, 128]⟩
abbrev S10x128 : Shape := ⟨2, ![10, 128]⟩
abbrev S768x128 : Shape := ⟨2, ![768, 128]⟩
abbrev S128 : Shape := ⟨1, ![128]⟩
abbrev S256x4 : Shape := ⟨2, ![256, 4]⟩
abbrev S4 : Shape := ⟨1, ![4]⟩
abbrev S_ : Shape := ⟨0, ![]⟩
abbrev S1x768x128 : Shape := ⟨3, ![1, 768, 128]⟩
abbrev S10x768x256 : Shape := ⟨3, ![10, 768, 256]⟩
abbrev S1x128 : Shape := ⟨2, ![1, 128]⟩
abbrev S10x256 : Shape := ⟨2, ![10, 256]⟩
abbrev S10x1x256 : Shape := ⟨3, ![10, 1, 256]⟩
abbrev S64x512x4 : Shape := ⟨3, ![64, 512, 4]⟩
abbrev S8x512x768 : Shape := ⟨3, ![8, 512, 768]⟩
abbrev S8x512x4 : Shape := ⟨3, ![8, 512, 4]⟩
abbrev S1 : Shape := ⟨1, ![1]⟩
abbrev S1x512x768 : Shape := ⟨3, ![1, 512, 768]⟩
abbrev S512x768 : Shape := ⟨2, ![512, 768]⟩
abbrev S1x768x256 : Shape := ⟨3, ![1, 768, 256]⟩
abbrev S768x256 : Shape := ⟨2, ![768, 256]⟩
abbrev S1x1x256 : Shape := ⟨3, ![1, 1, 256]⟩
abbrev S1x256 : Shape := ⟨2, ![1, 256]⟩
abbrev S256 : Shape := ⟨1, ![256]⟩
abbrev S512x256 : Shape := ⟨2, ![512, 256]⟩
abbrev S512x4 : Shape := ⟨2, ![512, 4]⟩
abbrev S1x4 : Shape := ⟨2, ![1, 4]⟩
abbrev S1x512x4 : Shape := ⟨3, ![1, 512, 4]⟩

abbrev nBuf : Space → Nat
  | .hbm => 25
  | .vmem => 8
  | .smem => 1
  | _ => 0

abbrev bufTy : (tb : Table) → Fin (tcTables nBuf tb) → BufTy
  | .hbm, ⟨0, _⟩ => ⟨S64x512x768, .f32⟩
  | .hbm, ⟨1, _⟩ => ⟨S64, .i32⟩
  | .hbm, ⟨2, _⟩ => ⟨S10x768x128, .f32⟩
  | .hbm, ⟨3, _⟩ => ⟨S10x128, .f32⟩
  | .hbm, ⟨4, _⟩ => ⟨S768x128, .f32⟩
  | .hbm, ⟨5, _⟩ => ⟨S128, .f32⟩
  | .hbm, ⟨6, _⟩ => ⟨S256x4, .f32⟩
  | .hbm, ⟨7, _⟩ => ⟨S4, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S1x768x128, .f32⟩
  | .hbm, ⟨16, _⟩ => ⟨S10x768x128, .f32⟩
  | .hbm, ⟨17, _⟩ => ⟨S10x768x256, .f32⟩
  | .hbm, ⟨18, _⟩ => ⟨S10x768x256, .bf16⟩
  | .hbm, ⟨19, _⟩ => ⟨S1x128, .f32⟩
  | .hbm, ⟨20, _⟩ => ⟨S10x128, .f32⟩
  | .hbm, ⟨21, _⟩ => ⟨S10x256, .f32⟩
  | .hbm, ⟨22, _⟩ => ⟨S10x1x256, .f32⟩
  | .hbm, ⟨23, _⟩ => ⟨S256x4, .bf16⟩
  | .hbm, ⟨24, _⟩ => ⟨S64x512x4, .f32⟩
  | .local _ .vmem, ⟨0, _⟩ => ⟨S8x512x768, .f32⟩
  | .local _ .vmem, ⟨1, _⟩ => ⟨S8x512x768, .f32⟩
  | .local _ .vmem, ⟨2, _⟩ => ⟨S10x768x256, .bf16⟩
  | .local _ .vmem, ⟨3, _⟩ => ⟨S10x1x256, .f32⟩
  | .local _ .vmem, ⟨4, _⟩ => ⟨S256x4, .bf16⟩
  | .local _ .vmem, ⟨5, _⟩ => ⟨S4, .f32⟩
  | .local _ .vmem, ⟨6, _⟩ => ⟨S8x512x4, .f32⟩
  | .local _ .vmem, ⟨7, _⟩ => ⟨S8x512x4, .f32⟩
  | .local _ .smem, ⟨0, _⟩ => ⟨S64, .i32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v4 : BitVec 32 := Scalar.addi v0 c0_i32
  let v5 : Index := Scalar.indexCast v4
  ![v5.toNat]
def k0_off2 (v6 : BitVec 32) : Fin 3 → Nat :=
  let v11 : Index := Scalar.indexCast v6
  let c0_4 : Index := 0#32
  let c0_5 : Index := 0#32
  ![v11.toNat, 0, 0]

def k0_off3 (v6 : BitVec 32) : Fin 3 → Nat :=
  let v14 : Index := Scalar.indexCast v6
  let c0_6 : Index := 0#32
  let c0_7 : Index := 0#32
  ![v14.toNat, 0, 0]

def k0_chk1 (v6 : BitVec 32) : Prop :=
  (∀ a, (k0_off2 v6) a + S1x768x256.size a ≤ S10x768x256.size a) ∧
  (∀ a, (k0_off3 v6) a + S1x1x256.size a ≤ S10x1x256.size a)
instance k0_chk1.dec : ∀ (v6 : BitVec 32), Decidable (k0_chk1 v6) := fun v6 => decidable_of_iff' _ (Iff.of_eq (k0_chk1.eq_1 v6))
theorem k0_off2_inb : ∀ (v6 : BitVec 32) (k0_hw1 : k0_chk1 v6), ∀ a, (k0_off2 v6) a + S1x768x256.size a ≤ S10x768x256.size a := fun v6 k0_hw1 => k0_hw1.1
theorem k0_off3_inb : ∀ (v6 : BitVec 32) (k0_hw1 : k0_chk1 v6), ∀ a, (k0_off3 v6) a + S1x1x256.size a ≤ S10x1x256.size a := fun v6 k0_hw1 => k0_hw1.2

def k0_off4 (i : grid0.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v33 : BitVec 32 := Scalar.addi v0 c1_i32
  let v34 : Index := Scalar.indexCast v33
  ![v34.toNat]
def k0_off5 (v35 : BitVec 32) : Fin 3 → Nat :=
  let v40 : Index := Scalar.indexCast v35
  let c0_14 : Index := 0#32
  let c0_15 : Index := 0#32
  ![v40.toNat, 0, 0]

def k0_off6 (v35 : BitVec 32) : Fin 3 → Nat :=
  let v43 : Index := Scalar.indexCast v35
  let c0_16 : Index := 0#32
  let c0_17 : Index := 0#32
  ![v43.toNat, 0, 0]

def k0_chk2 (v35 : BitVec 32) : Prop :=
  (∀ a, (k0_off5 v35) a + S1x768x256.size a ≤ S10x768x256.size a) ∧
  (∀ a, (k0_off6 v35) a + S1x1x256.size a ≤ S10x1x256.size a)
instance k0_chk2.dec : ∀ (v35 : BitVec 32), Decidable (k0_chk2 v35) := fun v35 => decidable_of_iff' _ (Iff.of_eq (k0_chk2.eq_1 v35))
theorem k0_off5_inb : ∀ (v35 : BitVec 32) (k0_hw2 : k0_chk2 v35), ∀ a, (k0_off5 v35) a + S1x768x256.size a ≤ S10x768x256.size a := fun v35 k0_hw2 => k0_hw2.1
theorem k0_off6_inb : ∀ (v35 : BitVec 32) (k0_hw2 : k0_chk2 v35), ∀ a, (k0_off6 v35) a + S1x1x256.size a ≤ S10x1x256.size a := fun v35 k0_hw2 => k0_hw2.2

def k0_off7 (i : grid0.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v62 : BitVec 32 := Scalar.addi v0 c2_i32
  let v63 : Index := Scalar.indexCast v62
  ![v63.toNat]
def k0_off8 (v64 : BitVec 32) : Fin 3 → Nat :=
  let v69 : Index := Scalar.indexCast v64
  let c0_25 : Index := 0#32
  let c0_26 : Index := 0#32
  ![v69.toNat, 0, 0]

def k0_off9 (v64 : BitVec 32) : Fin 3 → Nat :=
  let v72 : Index := Scalar.indexCast v64
  let c0_27 : Index := 0#32
  let c0_28 : Index := 0#32
  ![v72.toNat, 0, 0]

def k0_chk3 (v64 : BitVec 32) : Prop :=
  (∀ a, (k0_off8 v64) a + S1x768x256.size a ≤ S10x768x256.size a) ∧
  (∀ a, (k0_off9 v64) a + S1x1x256.size a ≤ S10x1x256.size a)
instance k0_chk3.dec : ∀ (v64 : BitVec 32), Decidable (k0_chk3 v64) := fun v64 => decidable_of_iff' _ (Iff.of_eq (k0_chk3.eq_1 v64))
theorem k0_off8_inb : ∀ (v64 : BitVec 32) (k0_hw3 : k0_chk3 v64), ∀ a, (k0_off8 v64) a + S1x768x256.size a ≤ S10x768x256.size a := fun v64 k0_hw3 => k0_hw3.1
theorem k0_off9_inb : ∀ (v64 : BitVec 32) (k0_hw3 : k0_chk3 v64), ∀ a, (k0_off9 v64) a + S1x1x256.size a ≤ S10x1x256.size a := fun v64 k0_hw3 => k0_hw3.2

def k0_off10 (i : grid0.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v91 : BitVec 32 := Scalar.addi v0 c3_i32
  let v92 : Index := Scalar.indexCast v91
  ![v92.toNat]
def k0_off11 (v93 : BitVec 32) : Fin 3 → Nat :=
  let v98 : Index := Scalar.indexCast v93
  let c0_36 : Index := 0#32
  let c0_37 : Index := 0#32
  ![v98.toNat, 0, 0]

def k0_off12 (v93 : BitVec 32) : Fin 3 → Nat :=
  let v101 : Index := Scalar.indexCast v93
  let c0_38 : Index := 0#32
  let c0_39 : Index := 0#32
  ![v101.toNat, 0, 0]

def k0_chk4 (v93 : BitVec 32) : Prop :=
  (∀ a, (k0_off11 v93) a + S1x768x256.size a ≤ S10x768x256.size a) ∧
  (∀ a, (k0_off12 v93) a + S1x1x256.size a ≤ S10x1x256.size a)
instance k0_chk4.dec : ∀ (v93 : BitVec 32), Decidable (k0_chk4 v93) := fun v93 => decidable_of_iff' _ (Iff.of_eq (k0_chk4.eq_1 v93))
theorem k0_off11_inb : ∀ (v93 : BitVec 32) (k0_hw4 : k0_chk4 v93), ∀ a, (k0_off11 v93) a + S1x768x256.size a ≤ S10x768x256.size a := fun v93 k0_hw4 => k0_hw4.1
theorem k0_off12_inb : ∀ (v93 : BitVec 32) (k0_hw4 : k0_chk4 v93), ∀ a, (k0_off12 v93) a + S1x1x256.size a ≤ S10x1x256.size a := fun v93 k0_hw4 => k0_hw4.2

def k0_off13 (i : grid0.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v120 : BitVec 32 := Scalar.addi v0 c4_i32
  let v121 : Index := Scalar.indexCast v120
  ![v121.toNat]
def k0_off14 (v122 : BitVec 32) : Fin 3 → Nat :=
  let v127 : Index := Scalar.indexCast v122
  let c0_47 : Index := 0#32
  let c0_48 : Index := 0#32
  ![v127.toNat, 0, 0]

def k0_off15 (v122 : BitVec 32) : Fin 3 → Nat :=
  let v130 : Index := Scalar.indexCast v122
  let c0_49 : Index := 0#32
  let c0_50 : Index := 0#32
  ![v130.toNat, 0, 0]

def k0_chk5 (v122 : BitVec 32) : Prop :=
  (∀ a, (k0_off14 v122) a + S1x768x256.size a ≤ S10x768x256.size a) ∧
  (∀ a, (k0_off15 v122) a + S1x1x256.size a ≤ S10x1x256.size a)
instance k0_chk5.dec : ∀ (v122 : BitVec 32), Decidable (k0_chk5 v122) := fun v122 => decidable_of_iff' _ (Iff.of_eq (k0_chk5.eq_1 v122))
theorem k0_off14_inb : ∀ (v122 : BitVec 32) (k0_hw5 : k0_chk5 v122), ∀ a, (k0_off14 v122) a + S1x768x256.size a ≤ S10x768x256.size a := fun v122 k0_hw5 => k0_hw5.1
theorem k0_off15_inb : ∀ (v122 : BitVec 32) (k0_hw5 : k0_chk5 v122), ∀ a, (k0_off15 v122) a + S1x1x256.size a ≤ S10x1x256.size a := fun v122 k0_hw5 => k0_hw5.2

def k0_off16 (i : grid0.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v149 : BitVec 32 := Scalar.addi v0 c5_i32
  let v150 : Index := Scalar.indexCast v149
  ![v150.toNat]
def k0_off17 (v151 : BitVec 32) : Fin 3 → Nat :=
  let v156 : Index := Scalar.indexCast v151
  let c0_58 : Index := 0#32
  let c0_59 : Index := 0#32
  ![v156.toNat, 0, 0]

def k0_off18 (v151 : BitVec 32) : Fin 3 → Nat :=
  let v159 : Index := Scalar.indexCast v151
  let c0_60 : Index := 0#32
  let c0_61 : Index := 0#32
  ![v159.toNat, 0, 0]

def k0_chk6 (v151 : BitVec 32) : Prop :=
  (∀ a, (k0_off17 v151) a + S1x768x256.size a ≤ S10x768x256.size a) ∧
  (∀ a, (k0_off18 v151) a + S1x1x256.size a ≤ S10x1x256.size a)
instance k0_chk6.dec : ∀ (v151 : BitVec 32), Decidable (k0_chk6 v151) := fun v151 => decidable_of_iff' _ (Iff.of_eq (k0_chk6.eq_1 v151))
theorem k0_off17_inb : ∀ (v151 : BitVec 32) (k0_hw6 : k0_chk6 v151), ∀ a, (k0_off17 v151) a + S1x768x256.size a ≤ S10x768x256.size a := fun v151 k0_hw6 => k0_hw6.1
theorem k0_off18_inb : ∀ (v151 : BitVec 32) (k0_hw6 : k0_chk6 v151), ∀ a, (k0_off18 v151) a + S1x1x256.size a ≤ S10x1x256.size a := fun v151 k0_hw6 => k0_hw6.2

def k0_off19 (i : grid0.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v178 : BitVec 32 := Scalar.addi v0 c6_i32
  let v179 : Index := Scalar.indexCast v178
  ![v179.toNat]
def k0_off20 (v180 : BitVec 32) : Fin 3 → Nat :=
  let v185 : Index := Scalar.indexCast v180
  let c0_69 : Index := 0#32
  let c0_70 : Index := 0#32
  ![v185.toNat, 0, 0]

def k0_off21 (v180 : BitVec 32) : Fin 3 → Nat :=
  let v188 : Index := Scalar.indexCast v180
  let c0_71 : Index := 0#32
  let c0_72 : Index := 0#32
  ![v188.toNat, 0, 0]

def k0_chk7 (v180 : BitVec 32) : Prop :=
  (∀ a, (k0_off20 v180) a + S1x768x256.size a ≤ S10x768x256.size a) ∧
  (∀ a, (k0_off21 v180) a + S1x1x256.size a ≤ S10x1x256.size a)
instance k0_chk7.dec : ∀ (v180 : BitVec 32), Decidable (k0_chk7 v180) := fun v180 => decidable_of_iff' _ (Iff.of_eq (k0_chk7.eq_1 v180))
theorem k0_off20_inb : ∀ (v180 : BitVec 32) (k0_hw7 : k0_chk7 v180), ∀ a, (k0_off20 v180) a + S1x768x256.size a ≤ S10x768x256.size a := fun v180 k0_hw7 => k0_hw7.1
theorem k0_off21_inb : ∀ (v180 : BitVec 32) (k0_hw7 : k0_chk7 v180), ∀ a, (k0_off21 v180) a + S1x1x256.size a ≤ S10x1x256.size a := fun v180 k0_hw7 => k0_hw7.2

def k0_off22 (i : grid0.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v207 : BitVec 32 := Scalar.addi v0 c7_i32
  let v208 : Index := Scalar.indexCast v207
  ![v208.toNat]
def k0_off23 (v209 : BitVec 32) : Fin 3 → Nat :=
  let v214 : Index := Scalar.indexCast v209
  let c0_80 : Index := 0#32
  let c0_81 : Index := 0#32
  ![v214.toNat, 0, 0]

def k0_off24 (v209 : BitVec 32) : Fin 3 → Nat :=
  let v217 : Index := Scalar.indexCast v209
  let c0_82 : Index := 0#32
  let c0_83 : Index := 0#32
  ![v217.toNat, 0, 0]

def k0_chk8 (v209 : BitVec 32) : Prop :=
  (∀ a, (k0_off23 v209) a + S1x768x256.size a ≤ S10x768x256.size a) ∧
  (∀ a, (k0_off24 v209) a + S1x1x256.size a ≤ S10x1x256.size a)
instance k0_chk8.dec : ∀ (v209 : BitVec 32), Decidable (k0_chk8 v209) := fun v209 => decidable_of_iff' _ (Iff.of_eq (k0_chk8.eq_1 v209))
theorem k0_off23_inb : ∀ (v209 : BitVec 32) (k0_hw8 : k0_chk8 v209), ∀ a, (k0_off23 v209) a + S1x768x256.size a ≤ S10x768x256.size a := fun v209 k0_hw8 => k0_hw8.1
theorem k0_off24_inb : ∀ (v209 : BitVec 32) (k0_hw8 : k0_chk8 v209), ∀ a, (k0_off24 v209) a + S1x1x256.size a ≤ S10x1x256.size a := fun v209 k0_hw8 => k0_hw8.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S64 : S_.BroadcastsInDim S64 (![] : Fin 0 → Fin S64.rank)
  bcast_S768x128_S1x768x128_1_2 : S768x128.BroadcastsInDim S1x768x128 (![1, 2] : Fin 2 → Fin S1x768x128.rank)
  bcast_S1x768x128_S10x768x128_0_1_2 : S1x768x128.BroadcastsInDim S10x768x128 (![0, 1, 2] : Fin 3 → Fin S10x768x128.rank)
  concatenates_S10x768x128_S10x768x128_S10x768x256_d2 : Shape.Concatenates [S10x768x128, S10x768x128] S10x768x256 2
  bitsLt_bf16_f32 : FTy.bits .bf16 < FTy.bits .f32
  bcast_S128_S1x128_1 : S128.BroadcastsInDim S1x128 (![1] : Fin 1 → Fin S1x128.rank)
  bcast_S1x128_S10x128_0_1 : S1x128.BroadcastsInDim S10x128 (![0, 1] : Fin 2 → Fin S10x128.rank)
  concatenates_S10x128_S10x128_S10x256_d1 : Shape.Concatenates [S10x128, S10x128] S10x256 1
  bcast_S10x256_S10x1x256_0_2 : S10x256.BroadcastsInDim S10x1x256 (![0, 2] : Fin 2 → Fin S10x1x256.rank)
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S4_S4_0 : ∀ a, (![0] : Fin 1 → Nat) a + S4.size a ≤ S4.size a
  h_S4 : 0 < S4.numel
  numel1_S1 : S1.numel = 1
  inb_S8x512x768_S1x512x768_0_0_0 : ∀ a, (![0, 0, 0] : Fin 3 → Nat) a + S1x512x768.size a ≤ S8x512x768.size a
  h_S1x512x768 : 0 < S1x512x768.numel
  shapeCasts_S1x512x768_S512x768 : S1x512x768.ShapeCasts S512x768
  h_S1x768x256 : 0 < S1x768x256.numel
  shapeCasts_S1x768x256_S768x256 : S1x768x256.ShapeCasts S768x256
  h_S1x1x256 : 0 < S1x1x256.numel
  shapeCasts_S1x1x256_S1x256 : S1x1x256.ShapeCasts S1x256
  shapeCasts_S1x256_S256 : S1x256.ShapeCasts S256
  shapeCasts_S256_S1x256 : S256.ShapeCasts S1x256
  broadcasts_S1x256_S512x256 : S1x256.Broadcasts S512x256
  shapeCasts_S4_S1x4 : S4.ShapeCasts S1x4
  broadcasts_S1x4_S512x4 : S1x4.Broadcasts S512x4
  inb_S8x512x4_S1x512x4_0_0_0 : ∀ a, (![0, 0, 0] : Fin 3 → Nat) a + S1x512x4.size a ≤ S8x512x4.size a
  h_S1x512x4 : 0 < S1x512x4.numel
  shapeCasts_S1x512x4_S512x4 : S1x512x4.ShapeCasts S512x4
  shapeCasts_S512x4_S1x512x4 : S512x4.ShapeCasts S1x512x4
  inb_S8x512x768_S1x512x768_1_0_0 : ∀ a, (![1, 0, 0] : Fin 3 → Nat) a + S1x512x768.size a ≤ S8x512x768.size a
  inb_S8x512x4_S1x512x4_1_0_0 : ∀ a, (![1, 0, 0] : Fin 3 → Nat) a + S1x512x4.size a ≤ S8x512x4.size a
  inb_S8x512x768_S1x512x768_2_0_0 : ∀ a, (![2, 0, 0] : Fin 3 → Nat) a + S1x512x768.size a ≤ S8x512x768.size a
  inb_S8x512x4_S1x512x4_2_0_0 : ∀ a, (![2, 0, 0] : Fin 3 → Nat) a + S1x512x4.size a ≤ S8x512x4.size a
  inb_S8x512x768_S1x512x768_3_0_0 : ∀ a, (![3, 0, 0] : Fin 3 → Nat) a + S1x512x768.size a ≤ S8x512x768.size a
  inb_S8x512x4_S1x512x4_3_0_0 : ∀ a, (![3, 0, 0] : Fin 3 → Nat) a + S1x512x4.size a ≤ S8x512x4.size a
  inb_S8x512x768_S1x512x768_4_0_0 : ∀ a, (![4, 0, 0] : Fin 3 → Nat) a + S1x512x768.size a ≤ S8x512x768.size a
  inb_S8x512x4_S1x512x4_4_0_0 : ∀ a, (![4, 0, 0] : Fin 3 → Nat) a + S1x512x4.size a ≤ S8x512x4.size a
  inb_S8x512x768_S1x512x768_5_0_0 : ∀ a, (![5, 0, 0] : Fin 3 → Nat) a + S1x512x768.size a ≤ S8x512x768.size a
  inb_S8x512x4_S1x512x4_5_0_0 : ∀ a, (![5, 0, 0] : Fin 3 → Nat) a + S1x512x4.size a ≤ S8x512x4.size a
  inb_S8x512x768_S1x512x768_6_0_0 : ∀ a, (![6, 0, 0] : Fin 3 → Nat) a + S1x512x768.size a ≤ S8x512x768.size a
  inb_S8x512x4_S1x512x4_6_0_0 : ∀ a, (![6, 0, 0] : Fin 3 → Nat) a + S1x512x4.size a ≤ S8x512x4.size a
  inb_S8x512x768_S1x512x768_7_0_0 : ∀ a, (![7, 0, 0] : Fin 3 → Nat) a + S1x512x768.size a ≤ S8x512x768.size a
  inb_S8x512x4_S1x512x4_7_0_0 : ∀ a, (![7, 0, 0] : Fin 3 → Nat) a + S1x512x4.size a ≤ S8x512x4.size a
  dot_S512x768_S768x256_S512x256_1_0_0_1_n_n_wf : DotDims.WF S512x768 S768x256 S512x256 [1] [0] [0] [1] [] []
  dot_S512x256_S256x4_S512x4_1_0_0_1_n_n_wf : DotDims.WF S512x256 S256x4 S512x4 [1] [0] [0] [1] [] []
  hrank0 : 0 < grid0.rank
  k0_off1_inb : ∀ i : grid0.Coords, ∀ a, (k0_off1 i) a + S1.size a ≤ S64.size a
  k0_off4_inb : ∀ i : grid0.Coords, ∀ a, (k0_off4 i) a + S1.size a ≤ S64.size a
  k0_off7_inb : ∀ i : grid0.Coords, ∀ a, (k0_off7 i) a + S1.size a ≤ S64.size a
  k0_off10_inb : ∀ i : grid0.Coords, ∀ a, (k0_off10 i) a + S1.size a ≤ S64.size a
  k0_off13_inb : ∀ i : grid0.Coords, ∀ a, (k0_off13 i) a + S1.size a ≤ S64.size a
  k0_off16_inb : ∀ i : grid0.Coords, ∀ a, (k0_off16 i) a + S1.size a ≤ S64.size a
  k0_off19_inb : ∀ i : grid0.Coords, ∀ a, (k0_off19 i) a + S1.size a ≤ S64.size a
  k0_off22_inb : ∀ i : grid0.Coords, ∀ a, (k0_off22 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x768.size a ≤ S64x512x768.size a
  hwx0_0 : ∀ i : grid0.Coords, EltTy.bits .f32 = 32 ∨ (Rect.block (s := S64x512x768) S8x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x768x256.size a ≤ S10x768x256.size a
  hwx0_1 : ∀ i : grid0.Coords, EltTy.bits .bf16 = 32 ∨ (Rect.block (s := S10x768x256) S10x768x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x1x256.size a ≤ S10x1x256.size a
  hwx0_2 : ∀ i : grid0.Coords, EltTy.bits .f32 = 32 ∨ (Rect.block (s := S10x1x256) S10x1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x4.size a ≤ S256x4.size a
  hwx0_3 : ∀ i : grid0.Coords, EltTy.bits .bf16 = 32 ∨ (Rect.block (s := S256x4) S256x4.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4.size a ≤ S4.size a
  hwx0_4 : ∀ i : grid0.Coords, EltTy.bits .f32 = 32 ∨ (Rect.block (s := S4) S4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512x4.size a ≤ S64x512x4.size a
  hwx0_5 : ∀ i : grid0.Coords, EltTy.bits .f32 = 32 ∨ (Rect.block (s := S64x512x4) S8x512x4.size (cc0_transform_5 i) (hinb0_5 i)).WholeWords (EltTy.packing .f32)

variable [Facts₀]

def dot_S512x768_S768x256_S512x256_1_0_0_1_n_n : DotDims S512x768 S768x256 S512x256 where
  lhsContracting := [1]
  rhsContracting := [0]
  lhsNonContracting := [0]
  rhsNonContracting := [1]
  lhsBatch := []
  rhsBatch := []
  wf := dot_S512x768_S768x256_S512x256_1_0_0_1_n_n_wf
def dot_S512x256_S256x4_S512x4_1_0_0_1_n_n : DotDims S512x256 S256x4 S512x4 where
  lhsContracting := [1]
  rhsContracting := [0]
  lhsNonContracting := [0]
  rhsNonContracting := [1]
  lhsBatch := []
  rhsBatch := []
  wf := dot_S512x256_S256x4_S512x4_1_0_0_1_n_n_wf

abbrev spec0_0 : Pipeline.WinSpec sig grid0.rank :=
  Pipeline.WinSpec.ofSpec (Memref.whole main_arg0) S8x512x768.size reads0_0 false false 2 stage0_0 sem0_0 nbuf0_0 hstage0_0

abbrev spec0_1 : Pipeline.WinSpec sig grid0.rank :=
  Pipeline.WinSpec.ofSpec (Memref.whole main_v4) S10x768x256.size reads0_1 false true 1 stage0_1 sem0_1 nbuf0_1 hstage0_1

abbrev spec0_2 : Pipeline.WinSpec sig grid0.rank :=
  Pipeline.WinSpec.ofSpec (Memref.whole main_v8) S10x1x256.size reads0_2 false true 1 stage0_2 sem0_2 nbuf0_2 hstage0_2

abbrev spec0_3 : Pipeline.WinSpec sig grid0.rank :=
  Pipeline.WinSpec.ofSpec (Memref.whole main_v9) S256x4.size reads0_3 false true 1 stage0_3 sem0_3 nbuf0_3 hstage0_3

abbrev spec0_4 : Pipeline.WinSpec sig grid0.rank :=
  Pipeline.WinSpec.ofSpec (Memref.whole main_arg7) S4.size reads0_4 false true 1 stage0_4 sem0_4 nbuf0_4 hstage0_4

abbrev spec0_5 : Pipeline.WinSpec sig grid0.rank :=
  Pipeline.WinSpec.ofSpec (Memref.whole main_v10) S8x512x4.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S64x512x768 : Shape := ⟨3, ![64, 512, 768]⟩
abbrev S64 : Shape := ⟨1, ![64]⟩
abbrev S10x768x128 : Shape := ⟨3, ![10, 768, 128]⟩
abbrev S10x128 : Shape := ⟨2, ![10, 128]⟩
abbrev S768x128 : Shape := ⟨2, ![768, 128]⟩
abbrev S128 : Shape := ⟨1, ![128]⟩
abbrev S256x4 : Shape := ⟨2, ![256, 4]⟩
abbrev S4 : Shape := ⟨1, ![4]⟩
abbrev S64x512x128 : Shape := ⟨3, ![64, 512, 128]⟩
abbrev S1x1x128 : Shape := ⟨3, ![1, 1, 128]⟩
abbrev S_ : Shape := ⟨0, ![]⟩
abbrev S64x1 : Shape := ⟨2, ![64, 1]⟩
abbrev S64x768x128 : Shape := ⟨3, ![64, 768, 128]⟩
abbrev S64x128 : Shape := ⟨2, ![64, 128]⟩
abbrev S64x1x128 : Shape := ⟨3, ![64, 1, 128]⟩
abbrev S64x512x256 : Shape := ⟨3, ![64, 512, 256]⟩
abbrev S64x512x4 : Shape := ⟨3, ![64, 512, 4]⟩
abbrev S1x1x4 : Shape := ⟨3, ![1, 1, 4]⟩

abbrev nBuf : Space → Nat
  | .hbm => 45
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64, .i32⟩
  | .hbm, ⟨2, _⟩ => ⟨S10x768x128, .f32⟩
  | .hbm, ⟨3, _⟩ => ⟨S10x128, .f32⟩
  | .hbm, ⟨4, _⟩ => ⟨S768x128, .f32⟩
  | .hbm, ⟨5, _⟩ => ⟨S128, .f32⟩
  | .hbm, ⟨6, _⟩ => ⟨S256x4, .f32⟩
  | .hbm, ⟨7, _⟩ => ⟨S4, .f32⟩
  | .hbm, ⟨8, _⟩ => ⟨S64x512x128, .f32⟩
  | .hbm, ⟨9, _⟩ => ⟨S1x1x128, .f32⟩
  | .hbm, ⟨10, _⟩ => ⟨S64x512x128, .f32⟩
  | .hbm, ⟨11, _⟩ => ⟨S64x512x128, .f32⟩
  | .hbm, ⟨12, _⟩ => ⟨S_, .f32⟩
  | .hbm, ⟨13, _⟩ => ⟨S64x512x128, .f32⟩
  | .hbm, ⟨14, _⟩ => ⟨S64x512x128, .f32⟩
  | .hbm, ⟨15, _⟩ => ⟨S_, .i32⟩
  | .hbm, ⟨16, _⟩ => ⟨S64, .i32⟩
  | .hbm, ⟨17, _⟩ => ⟨S64, .i1⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S64x768x128, .f32⟩
  | .hbm, ⟨24, _⟩ => ⟨S_, .i32⟩
  | .hbm, ⟨25, _⟩ => ⟨S64, .i32⟩
  | .hbm, ⟨26, _⟩ => ⟨S64, .i1⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S64, .i32⟩
  | .hbm, ⟨31, _⟩ => ⟨S64x1, .i32⟩
  | .hbm, ⟨32, _⟩ => ⟨S64x128, .f32⟩
  | .hbm, ⟨33, _⟩ => ⟨S64x1x128, .f32⟩
  | .hbm, ⟨34, _⟩ => ⟨S64x512x128, .f32⟩
  | .hbm, ⟨35, _⟩ => ⟨S64x512x128, .f32⟩
  | .hbm, ⟨36, _⟩ => ⟨S64x512x128, .f32⟩
  | .hbm, ⟨37, _⟩ => ⟨S_, .f32⟩
  | .hbm, ⟨38, _⟩ => ⟨S64x512x128, .f32⟩
  | .hbm, ⟨39, _⟩ => ⟨S64x512x128, .f32⟩
  | .hbm, ⟨40, _⟩ => ⟨S64x512x256, .f32⟩
  | .hbm, ⟨41, _⟩ => ⟨S64x512x4, .f32⟩
  | .hbm, ⟨42, _⟩ => ⟨S1x1x4, .f32⟩
  | .hbm, ⟨43, _⟩ => ⟨S64x512x4, .f32⟩
  | .hbm, ⟨44, _⟩ => ⟨S64x512x4, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_cst : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S64x512x128_0_1_2 : S1x1x128.BroadcastsInDim S64x512x128 (![0, 1, 2] : Fin 3 → Fin S64x512x128.rank)
  bcast_S_S64x512x128 : S_.BroadcastsInDim S64x512x128 (![] : Fin 0 → Fin S64x512x128.rank)
  bcast_S_S64 : S_.BroadcastsInDim S64 (![] : Fin 0 → Fin S64.rank)
  bcast_S64_S64x1_0 : S64.BroadcastsInDim S64x1 (![0] : Fin 1 → Fin S64x1.rank)
  bcast_S64x128_S64x1x128_0_2 : S64x128.BroadcastsInDim S64x1x128 (![0, 2] : Fin 2 → Fin S64x1x128.rank)
  bcast_S64x1x128_S64x512x128_0_1_2 : S64x1x128.BroadcastsInDim S64x512x128 (![0, 1, 2] : Fin 3 → Fin S64x512x128.rank)
  concatenates_S64x512x128_S64x512x128_S64x512x256_d2 : Shape.Concatenates [S64x512x128, S64x512x128] S64x512x256 2
  bcast_S4_S1x1x4_2 : S4.BroadcastsInDim S1x1x4 (![2] : Fin 1 → Fin S1x1x4.rank)
  bcast_S1x1x4_S64x512x4_0_1_2 : S1x1x4.BroadcastsInDim S64x512x4 (![0, 1, 2] : Fin 3 → Fin S64x512x4.rank)
  dot_S64x512x768_S768x128_S64x512x128_2_0_01_1_n_n_wf : DotDims.WF S64x512x768 S768x128 S64x512x128 [2] [0] [0, 1] [1] [] []
  gather_S10x768x128_S64x1_S64x768x128_12_0_n_n_0_1_1768128_wf : GatherDims.WF S10x768x128 S64x1 S64x768x128 [1, 2] [0] [] [0] [] 1 ![1, 768, 128]
  gather_S10x128_S64x1_S64x128_1_0_n_n_0_1_1128_wf : GatherDims.WF S10x128 S64x1 S64x128 [1] [0] [] [0] [] 1 ![1, 128]
  dot_S64x512x768_S64x768x128_S64x512x128_2_1_1_2_0_0_wf : DotDims.WF S64x512x768 S64x768x128 S64x512x128 [2] [1] [1] [2] [0] [0]
  dot_S64x512x256_S256x4_S64x512x4_2_0_01_1_n_n_wf : DotDims.WF S64x512x256 S256x4 S64x512x4 [2] [0] [0, 1] [1] [] []

variable [Facts₀]

def dot_S64x512x768_S768x128_S64x512x128_2_0_01_1_n_n : DotDims S64x512x768 S768x128 S64x512x128 where
  lhsContracting := [2]
  rhsContracting := [0]
  lhsNonContracting := [0, 1]
  rhsNonContracting := [1]
  lhsBatch := []
  rhsBatch := []
  wf := dot_S64x512x768_S768x128_S64x512x128_2_0_01_1_n_n_wf
def gather_S10x768x128_S64x1_S64x768x128_12_0_n_n_0_1_1768128 : GatherDims S10x768x128 S64x1 S64x768x128 where
  offsetDims := [1, 2]
  collapsedSliceDims := [0]
  operandBatchingDims := []
  startIndicesBatchingDims := []
  startIndexMap := [0]
  indexVectorDim := 1
  sliceSizes := ![1, 768, 128]
  wf := gather_S10x768x128_S64x1_S64x768x128_12_0_n_n_0_1_1768128_wf
def gather_S10x128_S64x1_S64x128_1_0_n_n_0_1_1128 : GatherDims S10x128 S64x1 S64x128 where
  offsetDims := [1]
  collapsedSliceDims := [0]
  operandBatchingDims := []
  startIndicesBatchingDims := []
  startIndexMap := [0]
  indexVectorDim := 1
  sliceSizes := ![1, 128]
  wf := gather_S10x128_S64x1_S64x128_1_0_n_n_0_1_1128_wf
def dot_S64x512x768_S64x768x128_S64x512x128_2_1_1_2_0_0 : DotDims S64x512x768 S64x768x128 S64x512x128 where
  lhsContracting := [2]
  rhsContracting := [1]
  lhsNonContracting := [1]
  rhsNonContracting := [2]
  lhsBatch := [0]
  rhsBatch := [0]
  wf := dot_S64x512x768_S64x768x128_S64x512x128_2_1_1_2_0_0_wf
def dot_S64x512x256_S256x4_S64x512x4_2_0_01_1_n_n : DotDims S64x512x256 S256x4 S64x512x4 where
  lhsContracting := [2]
  rhsContracting := [0]
  lhsNonContracting := [0, 1]
  rhsNonContracting := [1]
  lhsBatch := []
  rhsBatch := []
  wf := dot_S64x512x256_S256x4_S64x512x4_2_0_01_1_n_n_wf

class Facts : Prop extends Facts₀ where

variable [Facts]
-- ==== Proof.PreWords.lean ====
/-
  The precondition decoded at the corpus words. The printed predicate is a conjunction (a chain of one-bit `and`s) whose
  last two conjuncts are "every corpus word is ≥ 0, signed" and "every corpus word is < 10, signed", each an
  and-reduction of a 64-element comparison against a broadcast constant. A word in [0, 10) signed is below 10 read as a
  natural number. The float conjuncts before them are never looked at: they stay one opaque bit.
-/
import proofs.«417747_j49563922596676_3_alg».proof.Pre_finite_inputs
import Idealize.ShloMosaic.Lib.ReduceAll
import Idealize.ShloMosaic.Lib.ValueIdx

namespace Cert.PreWords

open Idealize.ShloMosaic Idealize.ShloMosaic.ValueIdx Cert.Pre_finite_inputs

/-- The scalar shape has one index. -/
instance : Subsingleton S_.Idx := ⟨fun _ _ => funext fun d => d.elim0⟩

/-- A word that is ≥ 0 and < 10 as a signed number is below 10 as a natural number. -/
theorem toNat_lt_ten (w : BitVec 32) (h0 : IntOp.cmpi .sge w (0#32) = 1#1) (h10 : IntOp.cmpi .slt w (10#32) = 1#1) :
    w.toNat < 10 := by
  rw [IntOp.cmpi_sge] at h0
  rw [IntOp.cmpi_slt] at h10
  have z : (0#32 : BitVec 32).toInt = 0 := by decide
  have t : (10#32 : BitVec 32).toInt = 10 := by decide
  rw [z] at h0
  rw [t] at h10
  have h32 := w.isLt
  unfold BitVec.toInt at h0 h10
  split at h10 <;> omega

/-- The last part of the predicate: whatever bit the earlier conjuncts gave, the result is 1 only if every corpus word
    is in [0, 10). -/
theorem part2_lt {F : FTy → Type} [FloatOps F] [Cert.Pre_finite_inputs.Facts] (a1 : IVec S64 32) (v : IVec S_ 1)
    (e : fn_part2 (F := F) a1 v ix0 = 1#1) (b : Fin 64) : (a1 (ix1 b)).toNat < 10 := by
  unfold fn_part2 at e
  obtain ⟨e1, h10⟩ := IntOp.andi_eq_one.1 e
  obtain ⟨-, h0⟩ := IntOp.andi_eq_one.1 e1
  have g0 := Host.reduce_andi_all _ _ _ _ _ h0 (ix1 b)
  have g10 := Host.reduce_andi_all _ _ _ _ _ h10 (ix1 b)
  exact toNat_lt_ten _ g0 g10

theorem corpus_lt {F : FTy → Type} [FloatOps F] [Cert.Pre_finite_inputs.Facts]
    (a0 : FVec F S64x512x768 .f32) (a1 : IVec S64 32) (a2 : FVec F S10x768x128 .f32) (a3 : FVec F S10x128 .f32)
    (a4 : FVec F S768x128 .f32) (a5 : FVec F S128 .f32) (a6 : FVec F S256x4 .f32) (a7 : FVec F S4 .f32)
    (h : Cert.Pre_finite_inputs.fn (F := F) a0 a1 a2 a3 a4 a5 a6 a7 = fun _ => 1#1) (b : Fin 64) :
    (a1 (ix1 b)).toNat < 10 := by
  have e := congrFun h ix0
  unfold Cert.Pre_finite_inputs.fn at e
  unfold fn_part1 at e
  exact part2_lt a1 _ e b

end Cert.PreWords
-- ==== Proof.KernelTable.lean ====
/-
  The prefetched table and the side conditions the body assumes of the words it loads from it.

  The table is the corpus clamped to [0, 9]: minimum (9, maximum (0, corpus[b])), signed. Where every corpus word is
  below 10 as a natural number (so non-negative and at most 9 as a signed one) both clamps do nothing and the table IS
  the corpus. At grid point i the body loads, for row J = 0 … 7 of its block of eight batch rows, the table's word at
  offset 8·i + J, computed in 32-bit words (nothing wraps: i < 8), and uses it as an index on axis 0, of extent 10, of the
  two weight arrays: an index below 10 is inside them.
-/
import proofs.«417747_j49563922596676_3_alg».proof.Proof.Gen.KernelIdeal.Frame
import Idealize.ShloMosaic.Lib.ValueIdx
import Idealize.ShloMosaic.Lib.StableHlo.Run

set_option maxRecDepth 16384

noncomputable section

namespace Cert.KernelIdeal.Table

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The grid has one axis of eight points. -/
theorem coord_lt (i : grid0.Coords) : (i 0).val < 8 := (i 0).isLt

/-- batch row 8·i + J -/
def row (i : grid0.Coords) (J : Fin 8) : Fin 64 :=
  ⟨8 * (i 0).val + J.val, by have := coord_lt i; have := J.isLt; omega⟩

theorem row_val (i : grid0.Coords) (J : Fin 8) : (row i J).val = 8 * (i 0).val + J.val := rfl

/-! ## The table is the clamped corpus -/

/-- The table when the region is entered: minimum (9, maximum (0, corpus)), each constant broadcast over the 64 rows. -/
theorem tbl_eq :
    (tbl m 0 : S64.Idx → BitVec 32) = minsi (broadcastInDim S64 ![] bcast_S_S64 (constantI S_ 32 9#32))
      (maxsi (broadcastInDim S64 ![] bcast_S_S64 (constantI S_ 32 0#32)) (m (((0 : Dev nD) : Thread nD τ).loc main_arg1))) := by
  unfold tbl
  show V m 0 main_v0 = _
  dsimp only [V]
  simp only [hostOps0, hostOps0_1, hostOps0_2, List.flatten_cons, List.flatten_nil, List.append_nil, List.cons_append, List.nil_append]
  after_results
  rfl

/-- A word below 10 is its own clamp to [0, 9]: as a signed number it is its natural value, which is neither below 0 nor
    above 9. -/
theorem clamp_id (w : BitVec 32) (h : w.toNat < 10) : IntOp.minsi 9#32 (IntOp.maxsi 0#32 w) = w := by
  have hti : w.toInt = w.toNat := by unfold BitVec.toInt; rw [if_pos (by omega)]
  have h0 : (0#32 : BitVec 32).toInt = 0 := by decide
  have h9 : (9#32 : BitVec 32).toInt = 9 := by decide
  have hmax : IntOp.maxsi 0#32 w = w := by
    unfold IntOp.maxsi
    rw [if_neg]
    rw [BitVec.slt_iff_toInt_lt, hti, h0]; omega
  rw [hmax]
  unfold IntOp.minsi
  rw [if_neg]
  rw [BitVec.slt_iff_toInt_lt, hti, h9]; omega

/-- the table at batch row b is the corpus word there, when every corpus word is below 10 -/
theorem tbl_apply (hw : ∀ b : Fin 64, (m (((0 : Dev nD) : Thread nD τ).loc main_arg1) (ix1 b)).toNat < 10) (b : Fin 64) :
    tbl m 0 (ix1 b) = m (((0 : Dev nD) : Thread nD τ).loc main_arg1) (ix1 b) :=
  (congrFun (tbl_eq m) (ix1 b)).trans (clamp_id _ (hw b))

/-! ## The word the body loads -/

/-- The offset 8·x + J computed in 32-bit words, x < 8 and J < 8: no wrap. -/
theorem off_val (x : Nat) (hx : x < 8) (J : Nat) (hJ : J < 8) :
    (Scalar.indexCast (Scalar.addi (Scalar.muli (BitVec.ofNat 32 x) 8#32) (BitVec.ofNat 32 J))).toNat = 8 * x + J := by
  unfold Scalar.indexCast Scalar.addi Scalar.muli IntOp.addi IntOp.muli
  simp only [BitVec.toNat_add, BitVec.toNat_mul, BitVec.toNat_ofNat, Nat.reducePow, Nat.reduceMod]
  omega

/-- The one index of a one-word rectangle at offset k of the 64 words is index k. -/
theorem idx_at (k : Fin 64) (off : Fin 1 → Nat) (hoff : off 0 = k.val) (inb : ∀ a, off a + S1.size a ≤ S64.size a)
    (h1 : 0 < S1.numel) : (Rect.unit (s := S64) off S1.size inb).idx (Shape.Idx.first h1) = ix1 k := by
  refine (eq_ix1 _).trans (congrArg ix1 (Fin.ext ?_))
  show off 0 + 1 * 0 = k.val
  omega

/-- A one-word load at offset k through the whole table reads the table's contents at k. -/
theorem word_at {c : Dev nD} (xt0 : TbBuf0 (F := F) c tbM0_0) (k : Fin 64) (off : Fin 1 → Nat) (hoff : off 0 = k.val)
    (inb : ∀ a, off a + S1.size a ≤ S64.size a) (h1 : 0 < S1.numel) :
    tbM0_0.view.readAt (Elt F) (Rect.unit (s := S64) off S1.size inb).toLoadRect xt0 (Shape.Idx.first h1) = xt0 (ix1 k) :=
  congrArg xt0 (idx_at k off hoff inb h1)

theorem word_0 {c : Dev nD} (xt0 : TbBuf0 (F := F) c tbM0_0) (i : grid0.Coords)
    (inb : ∀ a, (k0_off1 i) a + S1.size a ≤ S64.size a) (h1 : 0 < S1.numel) :
    tbM0_0.view.readAt (Elt F) (Rect.unit (s := S64) (k0_off1 i) S1.size inb).toLoadRect xt0 (Shape.Idx.first h1)
      = xt0 (ix1 (row i 0)) :=
  word_at xt0 (row i 0) (k0_off1 i) (off_val (i 0).val (coord_lt i) 0 (by decide)) inb h1

theorem word_1 {c : Dev nD} (xt0 : TbBuf0 (F := F) c tbM0_0) (i : grid0.Coords)
    (inb : ∀ a, (k0_off4 i) a + S1.size a ≤ S64.size a) (h1 : 0 < S1.numel) :
    tbM0_0.view.readAt (Elt F) (Rect.unit (s := S64) (k0_off4 i) S1.size inb).toLoadRect xt0 (Shape.Idx.first h1)
      = xt0 (ix1 (row i 1)) :=
  word_at xt0 (row i 1) (k0_off4 i) (off_val (i 0).val (coord_lt i) 1 (by decide)) inb h1

theorem word_2 {c : Dev nD} (xt0 : TbBuf0 (F := F) c tbM0_0) (i : grid0.Coords)
    (inb : ∀ a, (k0_off7 i) a + S1.size a ≤ S64.size a) (h1 : 0 < S1.numel) :
    tbM0_0.view.readAt (Elt F) (Rect.unit (s := S64) (k0_off7 i) S1.size inb).toLoadRect xt0 (Shape.Idx.first h1)
      = xt0 (ix1 (row i 2)) :=
  word_at xt0 (row i 2) (k0_off7 i) (off_val (i 0).val (coord_lt i) 2 (by decide)) inb h1

theorem word_3 {c : Dev nD} (xt0 : TbBuf0 (F := F) c tbM0_0) (i : grid0.Coords)
    (inb : ∀ a, (k0_off10 i) a + S1.size a ≤ S64.size a) (h1 : 0 < S1.numel) :
    tbM0_0.view.readAt (Elt F) (Rect.unit (s := S64) (k0_off10 i) S1.size inb).toLoadRect xt0 (Shape.Idx.first h1)
      = xt0 (ix1 (row i 3)) :=
  word_at xt0 (row i 3) (k0_off10 i) (off_val (i 0).val (coord_lt i) 3 (by decide)) inb h1

theorem word_4 {c : Dev nD} (xt0 : TbBuf0 (F := F) c tbM0_0) (i : grid0.Coords)
    (inb : ∀ a, (k0_off13 i) a + S1.size a ≤ S64.size a) (h1 : 0 < S1.numel) :
    tbM0_0.view.readAt (Elt F) (Rect.unit (s := S64) (k0_off13 i) S1.size inb).toLoadRect xt0 (Shape.Idx.first h1)
      = xt0 (ix1 (row i 4)) :=
  word_at xt0 (row i 4) (k0_off13 i) (off_val (i 0).val (coord_lt i) 4 (by decide)) inb h1

theorem word_5 {c : Dev nD} (xt0 : TbBuf0 (F := F) c tbM0_0) (i : grid0.Coords)
    (inb : ∀ a, (k0_off16 i) a + S1.size a ≤ S64.size a) (h1 : 0 < S1.numel) :
    tbM0_0.view.readAt (Elt F) (Rect.unit (s := S64) (k0_off16 i) S1.size inb).toLoadRect xt0 (Shape.Idx.first h1)
      = xt0 (ix1 (row i 5)) :=
  word_at xt0 (row i 5) (k0_off16 i) (off_val (i 0).val (coord_lt i) 5 (by decide)) inb h1

theorem word_6 {c : Dev nD} (xt0 : TbBuf0 (F := F) c tbM0_0) (i : grid0.Coords)
    (inb : ∀ a, (k0_off19 i) a + S1.size a ≤ S64.size a) (h1 : 0 < S1.numel) :
    tbM0_0.view.readAt (Elt F) (Rect.unit (s := S64) (k0_off19 i) S1.size inb).toLoadRect xt0 (Shape.Idx.first h1)
      = xt0 (ix1 (row i 6)) :=
  word_at xt0 (row i 6) (k0_off19 i) (off_val (i 0).val (coord_lt i) 6 (by decide)) inb h1

theorem word_7 {c : Dev nD} (xt0 : TbBuf0 (F := F) c tbM0_0) (i : grid0.Coords)
    (inb : ∀ a, (k0_off22 i) a + S1.size a ≤ S64.size a) (h1 : 0 < S1.numel) :
    tbM0_0.view.readAt (Elt F) (Rect.unit (s := S64) (k0_off22 i) S1.size inb).toLoadRect xt0 (Shape.Idx.first h1)
      = xt0 (ix1 (row i 7)) :=
  word_at xt0 (row i 7) (k0_off22 i) (off_val (i 0).val (coord_lt i) 7 (by decide)) inb h1

/-! ## The side conditions -/

theorem ok : Ok m := trivial

/-- A word below 10, used as the offset on axis 0 of a one-expert block, leaves the block inside the ten experts'
    weight array and inside their bias array. -/
theorem chk_of_lt (w : BitVec 32) (hw : w.toNat < 10) :
    (∀ a, (![(Scalar.indexCast w).toNat, 0, 0] : Fin 3 → Nat) a + S1x768x256.size a ≤ S10x768x256.size a) ∧
    (∀ a, (![(Scalar.indexCast w).toNat, 0, 0] : Fin 3 → Nat) a + S1x1x256.size a ≤ S10x1x256.size a) := by
  refine ⟨fun a => ?_, fun a => ?_⟩
  · match a with
    | ⟨0, _⟩ => show w.toNat + 1 ≤ 10; omega
    | ⟨1, _⟩ => show 0 + 768 ≤ 768; omega
    | ⟨2, _⟩ => show 0 + 256 ≤ 256; omega
  · match a with
    | ⟨0, _⟩ => show w.toNat + 1 ≤ 10; omega
    | ⟨1, _⟩ => show 0 + 1 ≤ 1; omega
    | ⟨2, _⟩ => show 0 + 256 ≤ 256; omega

/-- The word loaded at offset k of the table at region entry is below 10. -/
theorem loaded_lt (hw : ∀ b : Fin 64, (m (((0 : Dev nD) : Thread nD τ).loc main_arg1) (ix1 b)).toNat < 10)
    (k : Fin 64) (off : Fin 1 → Nat) (hoff : off 0 = k.val) (inb : ∀ a, off a + S1.size a ≤ S64.size a) (h1 : 0 < S1.numel) :
    (tbM0_0.view.readAt (Elt F) (Rect.unit (s := S64) off S1.size inb).toLoadRect (tbl m 0) (Shape.Idx.first h1)).toNat < 10 := by
  rw [word_at (c := 0) (tbl m 0) k off hoff inb h1, tbl_apply m hw k]
  exact hw k

theorem hyps (hw : ∀ b : Fin 64, (m (((0 : Dev nD) : Thread nD τ).loc main_arg1) (ix1 b)).toNat < 10) (hO : Ok m) :
    Hyps m hO :=
  Hyps.of
    (fun c t => chk_of_lt _ (loaded_lt m hw (row (grid0.coords t) 0) _ (off_val _ (coord_lt _) 0 (by decide)) _ _))
    (fun c t => chk_of_lt _ (loaded_lt m hw (row (grid0.coords t) 1) _ (off_val _ (coord_lt _) 1 (by decide)) _ _))
    (fun c t => chk_of_lt _ (loaded_lt m hw (row (grid0.coords t) 2) _ (off_val _ (coord_lt _) 2 (by decide)) _ _))
    (fun c t => chk_of_lt _ (loaded_lt m hw (row (grid0.coords t) 3) _ (off_val _ (coord_lt _) 3 (by decide)) _ _))
    (fun c t => chk_of_lt _ (loaded_lt m hw (row (grid0.coords t) 4) _ (off_val _ (coord_lt _) 4 (by decide)) _ _))
    (fun c t => chk_of_lt _ (loaded_lt m hw (row (grid0.coords t) 5) _ (off_val _ (coord_lt _) 5 (by decide)) _ _))
    (fun c t => chk_of_lt _ (loaded_lt m hw (row (grid0.coords t) 6) _ (off_val _ (coord_lt _) 6 (by decide)) _ _))
    (fun c t => chk_of_lt _ (loaded_lt m hw (row (grid0.coords t) 7) _ (off_val _ (coord_lt _) 7 (by decide)) _ _))

end Cert.KernelIdeal.Table

end
-- ==== Proof.KernelTableBits.lean ====
/-
  The prefetched table and the side conditions the body assumes of the words it loads from it.

  The table is the corpus clamped to [0, 9]: minimum (9, maximum (0, corpus[b])), signed. Where every corpus word is
  below 10 as a natural number (so non-negative and at most 9 as a signed one) both clamps do nothing and the table IS
  the corpus. At grid point i the body loads, for row J = 0 … 7 of its block of eight batch rows, the table's word at
  offset 8·i + J, computed in 32-bit words (nothing wraps: i < 8), and uses it as an index on axis 0, of extent 10, of the
  two weight arrays: an index below 10 is inside them.
-/
import proofs.«417747_j49563922596676_3_alg».proof.Proof.Gen.Kernel.Frame
import Idealize.ShloMosaic.Lib.ValueIdx
import Idealize.ShloMosaic.Lib.StableHlo.Run

set_option maxRecDepth 16384

noncomputable section

namespace Cert.Kernel.Table

open Cert.Kernel Cert.Kernel.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The grid has one axis of eight points. -/
theorem coord_lt (i : grid0.Coords) : (i 0).val < 8 := (i 0).isLt

/-- batch row 8·i + J -/
def row (i : grid0.Coords) (J : Fin 8) : Fin 64 :=
  ⟨8 * (i 0).val + J.val, by have := coord_lt i; have := J.isLt; omega⟩

theorem row_val (i : grid0.Coords) (J : Fin 8) : (row i J).val = 8 * (i 0).val + J.val := rfl

/-! ## The table is the clamped corpus -/

/-- The table when the region is entered: minimum (9, maximum (0, corpus)), each constant broadcast over the 64 rows. -/
theorem tbl_eq :
    (tbl m 0 : S64.Idx → BitVec 32) = minsi (broadcastInDim S64 ![] bcast_S_S64 (constantI S_ 32 9#32))
      (maxsi (broadcastInDim S64 ![] bcast_S_S64 (constantI S_ 32 0#32)) (m (((0 : Dev nD) : Thread nD τ).loc main_arg1))) := by
  unfold tbl
  show V m 0 main_v0 = _
  dsimp only [V]
  simp only [hostOps0, hostOps0_1, hostOps0_2, List.flatten_cons, List.flatten_nil, List.append_nil, List.cons_append, List.nil_append]
  after_results
  rfl

/-- A word below 10 is its own clamp to [0, 9]: as a signed number it is its natural value, which is neither below 0 nor
    above 9. -/
theorem clamp_id (w : BitVec 32) (h : w.toNat < 10) : IntOp.minsi 9#32 (IntOp.maxsi 0#32 w) = w := by
  have hti : w.toInt = w.toNat := by unfold BitVec.toInt; rw [if_pos (by omega)]
  have h0 : (0#32 : BitVec 32).toInt = 0 := by decide
  have h9 : (9#32 : BitVec 32).toInt = 9 := by decide
  have hmax : IntOp.maxsi 0#32 w = w := by
    unfold IntOp.maxsi
    rw [if_neg]
    rw [BitVec.slt_iff_toInt_lt, hti, h0]; omega
  rw [hmax]
  unfold IntOp.minsi
  rw [if_neg]
  rw [BitVec.slt_iff_toInt_lt, hti, h9]; omega

/-- the table at batch row b is the corpus word there, when every corpus word is below 10 -/
theorem tbl_apply (hw : ∀ b : Fin 64, (m (((0 : Dev nD) : Thread nD τ).loc main_arg1) (ix1 b)).toNat < 10) (b : Fin 64) :
    tbl m 0 (ix1 b) = m (((0 : Dev nD) : Thread nD τ).loc main_arg1) (ix1 b) :=
  (congrFun (tbl_eq m) (ix1 b)).trans (clamp_id _ (hw b))

/-! ## The word the body loads -/

/-- The offset 8·x + J computed in 32-bit words, x < 8 and J < 8: no wrap. -/
theorem off_val (x : Nat) (hx : x < 8) (J : Nat) (hJ : J < 8) :
    (Scalar.indexCast (Scalar.addi (Scalar.muli (BitVec.ofNat 32 x) 8#32) (BitVec.ofNat 32 J))).toNat = 8 * x + J := by
  unfold Scalar.indexCast Scalar.addi Scalar.muli IntOp.addi IntOp.muli
  simp only [BitVec.toNat_add, BitVec.toNat_mul, BitVec.toNat_ofNat, Nat.reducePow, Nat.reduceMod]
  omega

/-- The one index of a one-word rectangle at offset k of the 64 words is index k. -/
theorem idx_at (k : Fin 64) (off : Fin 1 → Nat) (hoff : off 0 = k.val) (inb : ∀ a, off a + S1.size a ≤ S64.size a)
    (h1 : 0 < S1.numel) : (Rect.unit (s := S64) off S1.size inb).idx (Shape.Idx.first h1) = ix1 k := by
  refine (eq_ix1 _).trans (congrArg ix1 (Fin.ext ?_))
  show off 0 + 1 * 0 = k.val
  omega

/-- A one-word load at offset k through the whole table reads the table's contents at k. -/
theorem word_at {c : Dev nD} (xt0 : TbBuf0 (F := F) c tbM0_0) (k : Fin 64) (off : Fin 1 → Nat) (hoff : off 0 = k.val)
    (inb : ∀ a, off a + S1.size a ≤ S64.size a) (h1 : 0 < S1.numel) :
    tbM0_0.view.readAt (Elt F) (Rect.unit (s := S64) off S1.size inb).toLoadRect xt0 (Shape.Idx.first h1) = xt0 (ix1 k) :=
  congrArg xt0 (idx_at k off hoff inb h1)

theorem word_0 {c : Dev nD} (xt0 : TbBuf0 (F := F) c tbM0_0) (i : grid0.Coords)
    (inb : ∀ a, (k0_off1 i) a + S1.size a ≤ S64.size a) (h1 : 0 < S1.numel) :
    tbM0_0.view.readAt (Elt F) (Rect.unit (s := S64) (k0_off1 i) S1.size inb).toLoadRect xt0 (Shape.Idx.first h1)
      = xt0 (ix1 (row i 0)) :=
  word_at xt0 (row i 0) (k0_off1 i) (off_val (i 0).val (coord_lt i) 0 (by decide)) inb h1

theorem word_1 {c : Dev nD} (xt0 : TbBuf0 (F := F) c tbM0_0) (i : grid0.Coords)
    (inb : ∀ a, (k0_off4 i) a + S1.size a ≤ S64.size a) (h1 : 0 < S1.numel) :
    tbM0_0.view.readAt (Elt F) (Rect.unit (s := S64) (k0_off4 i) S1.size inb).toLoadRect xt0 (Shape.Idx.first h1)
      = xt0 (ix1 (row i 1)) :=
  word_at xt0 (row i 1) (k0_off4 i) (off_val (i 0).val (coord_lt i) 1 (by decide)) inb h1

theorem word_2 {c : Dev nD} (xt0 : TbBuf0 (F := F) c tbM0_0) (i : grid0.Coords)
    (inb : ∀ a, (k0_off7 i) a + S1.size a ≤ S64.size a) (h1 : 0 < S1.numel) :
    tbM0_0.view.readAt (Elt F) (Rect.unit (s := S64) (k0_off7 i) S1.size inb).toLoadRect xt0 (Shape.Idx.first h1)
      = xt0 (ix1 (row i 2)) :=
  word_at xt0 (row i 2) (k0_off7 i) (off_val (i 0).val (coord_lt i) 2 (by decide)) inb h1

theorem word_3 {c : Dev nD} (xt0 : TbBuf0 (F := F) c tbM0_0) (i : grid0.Coords)
    (inb : ∀ a, (k0_off10 i) a + S1.size a ≤ S64.size a) (h1 : 0 < S1.numel) :
    tbM0_0.view.readAt (Elt F) (Rect.unit (s := S64) (k0_off10 i) S1.size inb).toLoadRect xt0 (Shape.Idx.first h1)
      = xt0 (ix1 (row i 3)) :=
  word_at xt0 (row i 3) (k0_off10 i) (off_val (i 0).val (coord_lt i) 3 (by decide)) inb h1

theorem word_4 {c : Dev nD} (xt0 : TbBuf0 (F := F) c tbM0_0) (i : grid0.Coords)
    (inb : ∀ a, (k0_off13 i) a + S1.size a ≤ S64.size a) (h1 : 0 < S1.numel) :
    tbM0_0.view.readAt (Elt F) (Rect.unit (s := S64) (k0_off13 i) S1.size inb).toLoadRect xt0 (Shape.Idx.first h1)
      = xt0 (ix1 (row i 4)) :=
  word_at xt0 (row i 4) (k0_off13 i) (off_val (i 0).val (coord_lt i) 4 (by decide)) inb h1

theorem word_5 {c : Dev nD} (xt0 : TbBuf0 (F := F) c tbM0_0) (i : grid0.Coords)
    (inb : ∀ a, (k0_off16 i) a + S1.size a ≤ S64.size a) (h1 : 0 < S1.numel) :
    tbM0_0.view.readAt (Elt F) (Rect.unit (s := S64) (k0_off16 i) S1.size inb).toLoadRect xt0 (Shape.Idx.first h1)
      = xt0 (ix1 (row i 5)) :=
  word_at xt0 (row i 5) (k0_off16 i) (off_val (i 0).val (coord_lt i) 5 (by decide)) inb h1

theorem word_6 {c : Dev nD} (xt0 : TbBuf0 (F := F) c tbM0_0) (i : grid0.Coords)
    (inb : ∀ a, (k0_off19 i) a + S1.size a ≤ S64.size a) (h1 : 0 < S1.numel) :
    tbM0_0.view.readAt (Elt F) (Rect.unit (s := S64) (k0_off19 i) S1.size inb).toLoadRect xt0 (Shape.Idx.first h1)
      = xt0 (ix1 (row i 6)) :=
  word_at xt0 (row i 6) (k0_off19 i) (off_val (i 0).val (coord_lt i) 6 (by decide)) inb h1

theorem word_7 {c : Dev nD} (xt0 : TbBuf0 (F := F) c tbM0_0) (i : grid0.Coords)
    (inb : ∀ a, (k0_off22 i) a + S1.size a ≤ S64.size a) (h1 : 0 < S1.numel) :
    tbM0_0.view.readAt (Elt F) (Rect.unit (s := S64) (k0_off22 i) S1.size inb).toLoadRect xt0 (Shape.Idx.first h1)
      = xt0 (ix1 (row i 7)) :=
  word_at xt0 (row i 7) (k0_off22 i) (off_val (i 0).val (coord_lt i) 7 (by decide)) inb h1

/-! ## The side conditions -/

theorem ok : Ok m := trivial

/-- A word below 10, used as the offset on axis 0 of a one-expert block, leaves the block inside the ten experts'
    weight array and inside their bias array. -/
theorem chk_of_lt (w : BitVec 32) (hw : w.toNat < 10) :
    (∀ a, (![(Scalar.indexCast w).toNat, 0, 0] : Fin 3 → Nat) a + S1x768x256.size a ≤ S10x768x256.size a) ∧
    (∀ a, (![(Scalar.indexCast w).toNat, 0, 0] : Fin 3 → Nat) a + S1x1x256.size a ≤ S10x1x256.size a) := by
  refine ⟨fun a => ?_, fun a => ?_⟩
  · match a with
    | ⟨0, _⟩ => show w.toNat + 1 ≤ 10; omega
    | ⟨1, _⟩ => show 0 + 768 ≤ 768; omega
    | ⟨2, _⟩ => show 0 + 256 ≤ 256; omega
  · match a with
    | ⟨0, _⟩ => show w.toNat + 1 ≤ 10; omega
    | ⟨1, _⟩ => show 0 + 1 ≤ 1; omega
    | ⟨2, _⟩ => show 0 + 256 ≤ 256; omega

/-- The word loaded at offset k of the table at region entry is below 10. -/
theorem loaded_lt (hw : ∀ b : Fin 64, (m (((0 : Dev nD) : Thread nD τ).loc main_arg1) (ix1 b)).toNat < 10)
    (k : Fin 64) (off : Fin 1 → Nat) (hoff : off 0 = k.val) (inb : ∀ a, off a + S1.size a ≤ S64.size a) (h1 : 0 < S1.numel) :
    (tbM0_0.view.readAt (Elt F) (Rect.unit (s := S64) off S1.size inb).toLoadRect (tbl m 0) (Shape.Idx.first h1)).toNat < 10 := by
  rw [word_at (c := 0) (tbl m 0) k off hoff inb h1, tbl_apply m hw k]
  exact hw k

theorem hyps (hw : ∀ b : Fin 64, (m (((0 : Dev nD) : Thread nD τ).loc main_arg1) (ix1 b)).toNat < 10) (hO : Ok m) :
    Hyps m hO :=
  Hyps.of
    (fun c t => chk_of_lt _ (loaded_lt m hw (row (grid0.coords t) 0) _ (off_val _ (coord_lt _) 0 (by decide)) _ _))
    (fun c t => chk_of_lt _ (loaded_lt m hw (row (grid0.coords t) 1) _ (off_val _ (coord_lt _) 1 (by decide)) _ _))
    (fun c t => chk_of_lt _ (loaded_lt m hw (row (grid0.coords t) 2) _ (off_val _ (coord_lt _) 2 (by decide)) _ _))
    (fun c t => chk_of_lt _ (loaded_lt m hw (row (grid0.coords t) 3) _ (off_val _ (coord_lt _) 3 (by decide)) _ _))
    (fun c t => chk_of_lt _ (loaded_lt m hw (row (grid0.coords t) 4) _ (off_val _ (coord_lt _) 4 (by decide)) _ _))
    (fun c t => chk_of_lt _ (loaded_lt m hw (row (grid0.coords t) 5) _ (off_val _ (coord_lt _) 5 (by decide)) _ _))
    (fun c t => chk_of_lt _ (loaded_lt m hw (row (grid0.coords t) 6) _ (off_val _ (coord_lt _) 6 (by decide)) _ _))
    (fun c t => chk_of_lt _ (loaded_lt m hw (row (grid0.coords t) 7) _ (off_val _ (coord_lt _) 7 (by decide)) _ _))

end Cert.Kernel.Table

end
-- ==== Proof.KernelRow.lean ====
/-
  One batch row of the kernel's block, read at an index over the extended reals.

  The kernel body is an unrolled loop over the eight batch rows of its block. Each trip computes, from the row's
  tokens x : [1, 512, 768], the row's expert weight w : [1, 768, 256] and bias b : [1, 1, 256], and the shared
  fc_w : [256, 4], fc_b : [4], the array  relu (x · w + b) · fc_w + fc_b : [1, 512, 4].  The printed body spells the
  eight trips' results by differently grouped terms; they are one function (the first section, by unfolding).
  At the ideal values a change of float format is the identity, a product into a zero accumulator is the plain sum
  over the contracted axis, and the row's result at (s, o) is
      Σ_h max (Σ_e x[s, e] · w[e, h] + b[h]) 0 · fc_w[h, o] + fc_b[o].
-/
import proofs.«417747_j49563922596676_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-! ## The eight trips compute one function -/

section OneFunction
variable {F : FTy → Type} [FloatOps F]

theorem pay4_eq (v1 : Vec F S256x4 .bf16) (v3 : Vec F S4 .f32) (a : Vec F S1x512x768 .f32) (b : Vec F S1x768x256 .bf16)
    (c : Vec F S1x1x256 .f32) : k0_pay4 v1 v3 a b c = k0_pay2 (k0_pay3 v1) v3 a b c := rfl
theorem pay5_eq (v2 : FVec F S256x4 .bf16) (v3 : Vec F S4 .f32) (a : Vec F S1x512x768 .f32) (b : Vec F S1x768x256 .bf16)
    (c : Vec F S1x1x256 .f32) : k0_pay5 v2 v3 a b c = k0_pay2 v2 v3 a b c := rfl
theorem pay8_eq (v2 : FVec F S256x4 .bf16) (v3 : Vec F S4 .f32) (a : Vec F S1x512x768 .f32) (b : Vec F S1x768x256 .bf16)
    (c : Vec F S1x1x256 .f32) : k0_pay8 v2 v3 (k0_pay6 a b) (k0_pay7 c) = k0_pay2 v2 v3 a b c := rfl
theorem pay9_eq (v2 : FVec F S256x4 .bf16) (v3 : Vec F S4 .f32) (a : Vec F S1x512x768 .f32) (b : Vec F S1x768x256 .bf16)
    (c : Vec F S1x1x256 .f32) : k0_pay9 v2 v3 a b c = k0_pay2 v2 v3 a b c := rfl
theorem pay10_eq (v2 : FVec F S256x4 .bf16) (v3 : Vec F S4 .f32) (a : Vec F S1x512x768 .f32) (b : Vec F S1x768x256 .bf16)
    (c : Vec F S1x1x256 .f32) : k0_pay10 v2 v3 a b c = k0_pay2 v2 v3 a b c := rfl
theorem pay13_eq (v2 : FVec F S256x4 .bf16) (v3 : Vec F S4 .f32) (a : Vec F S1x512x768 .f32) (b : Vec F S1x768x256 .bf16)
    (c : Vec F S1x1x256 .f32) : k0_pay13 v2 v3 (k0_pay11 a) (k0_pay12 b) c = k0_pay2 v2 v3 a b c := rfl
theorem pay1_eq (v2 : FVec F S256x4 .bf16) (v3 : Vec F S4 .f32) (a : Vec F S1x512x768 .f32) (b : Vec F S1x768x256 .bf16)
    (c : Vec F S1x1x256 .f32) : k0_pay1 v3 (k0_pay14 v2 a b c) = k0_pay2 v2 v3 a b c := rfl

end OneFunction

/-! ## The two products at an index -/

theorem lhsA_0 (i : S512x256.Idx) (q : dot_S512x768_S768x256_S512x256_1_0_0_1_n_n.contr.Idx) :
    (dot_S512x768_S768x256_S512x256_1_0_0_1_n_n.lhsIdx i q 0).val = (i 0).val := by
  unfold DotDims.lhsIdx
  rw [dif_neg (show ¬(0 : Fin S512x768.rank) ∈ dot_S512x768_S768x256_S512x256_1_0_0_1_n_n.lhsBatch by decide), dif_pos (show (0 : Fin S512x768.rank) ∈ dot_S512x768_S768x256_S512x256_1_0_0_1_n_n.lhsNonContracting by decide)]
  rfl
theorem lhsA_1 (i : S512x256.Idx) (q : dot_S512x768_S768x256_S512x256_1_0_0_1_n_n.contr.Idx) :
    (dot_S512x768_S768x256_S512x256_1_0_0_1_n_n.lhsIdx i q 1).val = (q ⟨0, by decide⟩).val :=
  dot_S512x768_S768x256_S512x256_1_0_0_1_n_n.lhsIdx_val_of_single rfl i q
theorem rhsA_0 (i : S512x256.Idx) (q : dot_S512x768_S768x256_S512x256_1_0_0_1_n_n.contr.Idx) :
    (dot_S512x768_S768x256_S512x256_1_0_0_1_n_n.rhsIdx i q 0).val = (q ⟨0, by decide⟩).val :=
  dot_S512x768_S768x256_S512x256_1_0_0_1_n_n.rhsIdx_val_of_single rfl i q
theorem rhsA_1 (i : S512x256.Idx) (q : dot_S512x768_S768x256_S512x256_1_0_0_1_n_n.contr.Idx) :
    (dot_S512x768_S768x256_S512x256_1_0_0_1_n_n.rhsIdx i q 1).val = (i 1).val := by
  unfold DotDims.rhsIdx
  rw [dif_neg (show ¬(1 : Fin S768x256.rank) ∈ dot_S512x768_S768x256_S512x256_1_0_0_1_n_n.rhsBatch by decide), dif_pos (show (1 : Fin S768x256.rank) ∈ dot_S512x768_S768x256_S512x256_1_0_0_1_n_n.rhsNonContracting by decide)]
  rfl

/-- The tokens against the expert's weight: entry (s, h) is the sum over the 768 features. -/
theorem matmulA_apply (l : FVec Ideal S512x768 .bf16) (r : FVec Ideal S768x256 .bf16) (s : Fin 512) (h : Fin 256) :
    matmul dot_S512x768_S768x256_S512x256_1_0_0_1_n_n none l r (constant (F := Ideal) S512x256 .f32 0x00000000#32) (ix2 s h)
      = ∑ e : Fin 768, l (ix2 s e) * r (ix2 e h) := by
  refine (Ideal.matmul_constant_zero_apply dot_S512x768_S768x256_S512x256_1_0_0_1_n_n none l r (ix2 s h)).trans ?_
  rw [← Equiv.sum_comp (ValueIdx.contrEquiv1 dot_S512x768_S768x256_S512x256_1_0_0_1_n_n 768 rfl rfl).symm]
  refine Finset.sum_congr rfl fun k _ => ?_
  have hk := ValueIdx.contrEquiv1_symm_val dot_S512x768_S768x256_S512x256_1_0_0_1_n_n 768 rfl rfl k
  have el : dot_S512x768_S768x256_S512x256_1_0_0_1_n_n.lhsIdx (ix2 s h) ((ValueIdx.contrEquiv1 dot_S512x768_S768x256_S512x256_1_0_0_1_n_n 768 rfl rfl).symm k) = ix2 s k := funext fun a => Fin.ext (by
    match a with
    | ⟨0, _⟩ => exact lhsA_0 _ _
    | ⟨1, _⟩ => exact (lhsA_1 _ _).trans hk)
  have er : dot_S512x768_S768x256_S512x256_1_0_0_1_n_n.rhsIdx (ix2 s h) ((ValueIdx.contrEquiv1 dot_S512x768_S768x256_S512x256_1_0_0_1_n_n 768 rfl rfl).symm k) = ix2 k h := funext fun a => Fin.ext (by
    match a with
    | ⟨0, _⟩ => exact (rhsA_0 _ _).trans hk
    | ⟨1, _⟩ => exact rhsA_1 _ _)
  rw [el, er]

theorem lhsB_0 (i : S512x4.Idx) (q : dot_S512x256_S256x4_S512x4_1_0_0_1_n_n.contr.Idx) :
    (dot_S512x256_S256x4_S512x4_1_0_0_1_n_n.lhsIdx i q 0).val = (i 0).val := by
  unfold DotDims.lhsIdx
  rw [dif_neg (show ¬(0 : Fin S512x256.rank) ∈ dot_S512x256_S256x4_S512x4_1_0_0_1_n_n.lhsBatch by decide), dif_pos (show (0 : Fin S512x256.rank) ∈ dot_S512x256_S256x4_S512x4_1_0_0_1_n_n.lhsNonContracting by decide)]
  rfl
theorem lhsB_1 (i : S512x4.Idx) (q : dot_S512x256_S256x4_S512x4_1_0_0_1_n_n.contr.Idx) :
    (dot_S512x256_S256x4_S512x4_1_0_0_1_n_n.lhsIdx i q 1).val = (q ⟨0, by decide⟩).val :=
  dot_S512x256_S256x4_S512x4_1_0_0_1_n_n.lhsIdx_val_of_single rfl i q
theorem rhsB_0 (i : S512x4.Idx) (q : dot_S512x256_S256x4_S512x4_1_0_0_1_n_n.contr.Idx) :
    (dot_S512x256_S256x4_S512x4_1_0_0_1_n_n.rhsIdx i q 0).val = (q ⟨0, by decide⟩).val :=
  dot_S512x256_S256x4_S512x4_1_0_0_1_n_n.rhsIdx_val_of_single rfl i q
theorem rhsB_1 (i : S512x4.Idx) (q : dot_S512x256_S256x4_S512x4_1_0_0_1_n_n.contr.Idx) :
    (dot_S512x256_S256x4_S512x4_1_0_0_1_n_n.rhsIdx i q 1).val = (i 1).val := by
  unfold DotDims.rhsIdx
  rw [dif_neg (show ¬(1 : Fin S256x4.rank) ∈ dot_S512x256_S256x4_S512x4_1_0_0_1_n_n.rhsBatch by decide), dif_pos (show (1 : Fin S256x4.rank) ∈ dot_S512x256_S256x4_S512x4_1_0_0_1_n_n.rhsNonContracting by decide)]
  rfl

/-- The hidden layer against fc_w: entry (s, o) is the sum over the 256 hidden units. -/
theorem matmulB_apply (l : FVec Ideal S512x256 .bf16) (r : FVec Ideal S256x4 .bf16) (s : Fin 512) (o : Fin 4) :
    matmul dot_S512x256_S256x4_S512x4_1_0_0_1_n_n none l r (constant (F := Ideal) S512x4 .f32 0x00000000#32) (ix2 s o)
      = ∑ h : Fin 256, l (ix2 s h) * r (ix2 h o) := by
  refine (Ideal.matmul_constant_zero_apply dot_S512x256_S256x4_S512x4_1_0_0_1_n_n none l r (ix2 s o)).trans ?_
  rw [← Equiv.sum_comp (ValueIdx.contrEquiv1 dot_S512x256_S256x4_S512x4_1_0_0_1_n_n 256 rfl rfl).symm]
  refine Finset.sum_congr rfl fun k _ => ?_
  have hk := ValueIdx.contrEquiv1_symm_val dot_S512x256_S256x4_S512x4_1_0_0_1_n_n 256 rfl rfl k
  have el : dot_S512x256_S256x4_S512x4_1_0_0_1_n_n.lhsIdx (ix2 s o) ((ValueIdx.contrEquiv1 dot_S512x256_S256x4_S512x4_1_0_0_1_n_n 256 rfl rfl).symm k) = ix2 s k := funext fun a => Fin.ext (by
    match a with
    | ⟨0, _⟩ => exact lhsB_0 _ _
    | ⟨1, _⟩ => exact (lhsB_1 _ _).trans hk)
  have er : dot_S512x256_S256x4_S512x4_1_0_0_1_n_n.rhsIdx (ix2 s o) ((ValueIdx.contrEquiv1 dot_S512x256_S256x4_S512x4_1_0_0_1_n_n 256 rfl rfl).symm k) = ix2 k o := funext fun a => Fin.ext (by
    match a with
    | ⟨0, _⟩ => exact (rhsB_0 _ _).trans hk
    | ⟨1, _⟩ => exact rhsB_1 _ _)
  rw [el, er]

/-! ## One row's result at an index -/

/-- The row's result at token s and output o: the hidden layer relu (x · w + b) against column o of fc_w, plus
    fc_b[o]. -/
theorem pay2_apply (fcw : FVec Ideal S256x4 .bf16) (fcb : Vec Ideal S4 .f32) (xw : Vec Ideal S1x512x768 .f32)
    (ww : Vec Ideal S1x768x256 .bf16) (bw : Vec Ideal S1x1x256 .f32) (s : Fin 512) (o : Fin 4) :
    k0_pay2 (F := Ideal) fcw fcb xw ww bw (ix3 (0 : Fin 1) s o)
      = (∑ h : Fin 256, max ((∑ e : Fin 768, xw (ix3 (0 : Fin 1) s e) * ww (ix3 (0 : Fin 1) e h))
            + bw (ix3 (0 : Fin 1) (0 : Fin 1) h)) 0 * fcw (ix2 h o)) + fcb (ix1 o) := by
  unfold k0_pay2
  rw [shapeCast_ab_1ab_apply, addf_apply, matmulB_apply, broadcastTo_1b_ab_apply, shapeCast_a_1a_apply]
  refine congrArg (· + fcb (ix1 o)) (Finset.sum_congr rfl fun h _ => ?_)
  rw [truncf_apply, maximumf_apply, addf_apply, matmulA_apply, broadcast_apply, broadcastTo_1b_ab_apply,
    shapeCast_a_1a_apply, shapeCast_1a_a_apply, shapeCast_1ab_ab_apply]
  have hz : (FloatOps.ofBits (F := Ideal) FTy.f32 0x00000000#32 : EReal) = 0 := Ideal.ofBits_zero_f32
  rw [hz]
  refine congrArg (fun t => max (t + bw (ix3 (0 : Fin 1) (0 : Fin 1) h)) 0 * fcw (ix2 h o)) (Finset.sum_congr rfl fun e _ => ?_)
  rw [truncf_apply, shapeCast_1ab_ab_apply, shapeCast_1ab_ab_apply]

end Cert.KernelIdeal.Row

end
-- ==== Proof.KernelBlock.lean ====
/-
  What one grid point's body leaves in the output block, read at an index over the extended reals.

  The body writes the [8, 512, 4] block by eight stores, one [1, 512, 4] row each, the rows disjoint; so the block at
  (j, s, o) is the j-th store's value at (0, s, o). That value is the row function of KernelRow.lean of three
  loads: row j of the tokens' block, and — the table word w read for row j naming the expert — slice w of the
  weight table [10, 768, 256] and of the bias table [10, 1, 256].
-/
import proofs.«417747_j49563922596676_3_alg».proof.Proof.Gen.KernelIdeal.Frame
import proofs.«417747_j49563922596676_3_alg».proof.Proof.KernelRow
import proofs.«417747_j49563922596676_3_alg».proof.Proof.KernelTable
import Idealize.ShloMosaic.Lib.Pipeline.Value
import Idealize.ShloMosaic.Lib.ValueIdx
import Idealize.ShloMosaic.Lib.Tactic

set_option maxRecDepth 16384

noncomputable section

open scoped BigOperators

namespace Cert.KernelIdeal.Block

open Cert.KernelIdeal Cert.KernelIdeal.Gen Cert.KernelIdeal.Row Cert.KernelIdeal.Table
open Idealize.ShloMosaic Idealize.ShloMosaic.TcCoe Idealize.SL.Sem Idealize.ShloMosaic.Tactic Idealize.ShloMosaic.ValueIdx

/-! ## Eight disjoint rows -/

section Rows
variable {Val : EltTy → Type} [∀ e, Nonempty (Val e)]

/-- Under a last store of row k, an index of row k reads that store's value. -/
theorem canon_cons_row (k : Nat) (inb : ∀ a, (![k, 0, 0] : Fin 3 → Nat) a + S1x512x4.size a ≤ S8x512x4.size a)
    (p : S1x512x4.Idx → Val .f32) (L : List (View.Piece Val S8x512x4 .f32)) (j : Fin 8) (hj : j.val = k)
    (s : Fin 512) (o : Fin 4) :
    View.canon ((⟨Rect.unit (s := S8x512x4) ![k, 0, 0] S1x512x4.size inb, p⟩ : View.Piece Val S8x512x4 .f32) :: L) (ix3 j s o)
      = p (ix3 (0 : Fin 1) s o) := by
  have e : ix3 j s o = (Rect.unit (s := S8x512x4) ![k, 0, 0] S1x512x4.size inb).emb (ix3 (0 : Fin 1) s o) := by
    funext a
    apply Fin.ext
    match a with
    | ⟨0, _⟩ => show j.val = k + 1 * 0; omega
    | ⟨1, _⟩ => show s.val = 0 + 1 * s.val; omega
    | ⟨2, _⟩ => show o.val = 0 + 1 * o.val; omega
  rw [e]
  exact View.canon_cons_emb (Rect.unit (s := S8x512x4) ![k, 0, 0] S1x512x4.size inb) p L (ix3 (0 : Fin 1) s o)

/-- A store of another row leaves it alone. -/
theorem canon_cons_other (k : Nat) (inb : ∀ a, (![k, 0, 0] : Fin 3 → Nat) a + S1x512x4.size a ≤ S8x512x4.size a)
    (p : S1x512x4.Idx → Val .f32) (L : List (View.Piece Val S8x512x4 .f32)) (j : Fin 8) (hj : j.val ≠ k)
    (s : Fin 512) (o : Fin 4) :
    View.canon ((⟨Rect.unit (s := S8x512x4) ![k, 0, 0] S1x512x4.size inb, p⟩ : View.Piece Val S8x512x4 .f32) :: L) (ix3 j s o)
      = View.canon L (ix3 j s o) := by
  refine View.canon_cons_of_not_mem _ L ?_
  rw [Rect.mem_set_unit]
  intro h
  have h0 : k ≤ j.val ∧ j.val < k + 1 := h 0
  omega

end Rows

/-! ## The three loads at an index -/

section Loads
variable {Val : EltTy → Type}

/-- Row j of the tokens' block. -/
theorem ld_tokens (X : S8x512x768.Idx → Val .f32) (k : Nat) (inb : ∀ a, (![k, 0, 0] : Fin 3 → Nat) a + S1x512x768.size a ≤ S8x512x768.size a)
    (j : Fin 8) (hj : j.val = k) (s : Fin 512) (e : Fin 768) :
    View.ld X (Rect.unit (s := S8x512x768) ![k, 0, 0] S1x512x768.size inb) (ix3 (0 : Fin 1) s e) = X (ix3 j s e) := by
  refine congrArg X (funext fun a => Fin.ext ?_)
  match a with
  | ⟨0, _⟩ => show k + 1 * 0 = j.val; omega
  | ⟨1, _⟩ => show 0 + 1 * s.val = s.val; omega
  | ⟨2, _⟩ => show 0 + 1 * e.val = e.val; omega

/-- Slice n of the weight table. -/
theorem ld_weight (X : S10x768x256.Idx → Val .bf16) (off : Fin 3 → Nat) (inb : ∀ a, off a + S1x768x256.size a ≤ S10x768x256.size a)
    (n : Fin 10) (hoff : off = ![n.val, 0, 0]) (e : Fin 768) (h : Fin 256) :
    View.ld X (Rect.unit (s := S10x768x256) off S1x768x256.size inb) (ix3 (0 : Fin 1) e h) = X (ix3 n e h) := by
  subst hoff
  refine congrArg X (funext fun a => Fin.ext ?_)
  match a with
  | ⟨0, _⟩ => show n.val + 1 * 0 = n.val; omega
  | ⟨1, _⟩ => show 0 + 1 * e.val = e.val; omega
  | ⟨2, _⟩ => show 0 + 1 * h.val = h.val; omega

/-- Slice n of the bias table. -/
theorem ld_bias (X : S10x1x256.Idx → Val .f32) (off : Fin 3 → Nat) (inb : ∀ a, off a + S1x1x256.size a ≤ S10x1x256.size a)
    (n : Fin 10) (hoff : off = ![n.val, 0, 0]) (h : Fin 256) :
    View.ld X (Rect.unit (s := S10x1x256) off S1x1x256.size inb) (ix3 (0 : Fin 1) (0 : Fin 1) h) = X (ix3 n (0 : Fin 1) h) := by
  subst hoff
  refine congrArg X (funext fun a => Fin.ext ?_)
  match a with
  | ⟨0, _⟩ => show n.val + 1 * 0 = n.val; omega
  | ⟨1, _⟩ => show 0 + 1 * 0 = 0; omega
  | ⟨2, _⟩ => show 0 + 1 * h.val = h.val; omega

/-- The whole fc_b. -/
theorem ld_fcb (X : S4.Idx → Val .f32) (inb : ∀ a, (![0] : Fin 1 → Nat) a + S4.size a ≤ S4.size a) (o : Fin 4) :
    View.ld X (Rect.unit (s := S4) ![0] S4.size inb) (ix1 o) = X (ix1 o) := by
  refine congrArg X (funext fun a => Fin.ext ?_)
  match a with
  | ⟨0, _⟩ => show 0 + 1 * o.val = o.val; omega

end Loads

/-! ## The block at an index -/

theorem hz2 : (![0, 0] : Fin 2 → Nat) = fun _ => 0 := funext fun a => by fin_cases a <;> rfl
theorem hz1 : (![0] : Fin 1 → Nat) = fun _ => 0 := funext fun a => by fin_cases a <;> rfl

/-- Row j of the block at token s and output o, from the block's inputs: the tokens' row j against slice n of the
    weight and bias tables, relu, against fc_w, plus fc_b. -/
def rowVal (x0 : Vec Ideal S8x512x768 .f32) (x1 : Vec Ideal S10x768x256 .bf16) (x2 : Vec Ideal S10x1x256 .f32)
    (x3 : Vec Ideal S256x4 .bf16) (x4 : Vec Ideal S4 .f32) (n : Fin 10) (j : Fin 8) (s : Fin 512) (o : Fin 4) : EReal :=
  (∑ h : Fin 256, max ((∑ e : Fin 768, x0 (ix3 j s e) * x1 (ix3 n e h)) + x2 (ix3 n (0 : Fin 1) h)) 0 * x3 (ix2 h o))
    + x4 (ix1 o)

/-- One store's value at (0, s, o): the row function of its three loads and the two shared loads. -/
theorem row_value (arg2 : Memref sig .tc .vmem S8x512x768 .f32) (harg2 : arg2.IsWhole) (arg3 : Memref sig .tc .vmem S10x768x256 .bf16) (harg3 : arg3.IsWhole)
    (arg4 : Memref sig .tc .vmem S10x1x256 .f32) (harg4 : arg4.IsWhole) (arg5 : Memref sig .tc .vmem S256x4 .bf16) (harg5 : arg5.IsWhole)
    (arg6 : Memref sig .tc .vmem S4 .f32) (harg6 : arg6.IsWhole)
    (x0 : Vec Ideal S8x512x768 .f32) (x1 : Vec Ideal S10x768x256 .bf16) (x2 : Vec Ideal S10x1x256 .f32) (x3 : Vec Ideal S256x4 .bf16) (x4 : Vec Ideal S4 .f32)
    (k : Nat) (inbX : ∀ a, (![k, 0, 0] : Fin 3 → Nat) a + S1x512x768.size a ≤ S8x512x768.size a)
    (offW : Fin 3 → Nat) (inbW : ∀ a, offW a + S1x768x256.size a ≤ S10x768x256.size a)
    (offB : Fin 3 → Nat) (inbB : ∀ a, offB a + S1x1x256.size a ≤ S10x1x256.size a)
    (inb5 : ∀ a, (![0, 0] : Fin 2 → Nat) a + S256x4.size a ≤ S256x4.size a) (inb6 : ∀ a, (![0] : Fin 1 → Nat) a + S4.size a ≤ S4.size a)
    (j : Fin 8) (hj : j.val = k) (n : Fin 10) (hW : offW = ![n.val, 0, 0]) (hB : offB = ![n.val, 0, 0]) (s : Fin 512) (o : Fin 4) :
    k0_pay2 (F := Ideal)
        (k0_pay3 (View.readAt (Elt Ideal) arg5.view (Rect.unit (s := S256x4) ![0, 0] S256x4.size inb5).toLoadRect (harg5.unread x3)))
        (View.readAt (Elt Ideal) arg6.view (Rect.unit (s := S4) ![0] S4.size inb6).toLoadRect (harg6.unread x4))
        (View.readAt (Elt Ideal) arg2.view (Rect.unit (s := S8x512x768) ![k, 0, 0] S1x512x768.size inbX).toLoadRect (harg2.unread x0))
        (View.readAt (Elt Ideal) arg3.view (Rect.unit (s := S10x768x256) offW S1x768x256.size inbW).toLoadRect (harg3.unread x1))
        (View.readAt (Elt Ideal) arg4.view (Rect.unit (s := S10x1x256) offB S1x1x256.size inbB).toLoadRect (harg4.unread x2))
        (ix3 (0 : Fin 1) s o)
      = rowVal x0 x1 x2 x3 x4 n j s o := by
  rw [pay2_apply]
  unfold rowVal k0_pay3
  simp only [View.readAt_eq_ld, harg2.read_unread, harg3.read_unread, harg4.read_unread, harg5.read_unread, harg6.read_unread,
    shapeCast_self, View.ld_unit_zero (S := S256x4) hz2, ld_fcb x4 inb6,
    ld_tokens x0 k inbX j hj, ld_weight x1 offW inbW n hW, ld_bias x2 offB inbB n hB]

/-- An index of a [1, 512, 4] row by its two free coordinates. -/
theorem split_row (x : S1x512x4.Idx) : ∃ (s : Fin 512) (o : Fin 4), x = ix3 (0 : Fin 1) s o :=
  ⟨x 1, x 2, by
    funext a
    match a with
    | ⟨0, _⟩ =>
      apply Fin.ext
      have h := (x ⟨0, by decide⟩).isLt
      have e : S1x512x4.size ⟨0, by decide⟩ = 1 := by decide
      show (x ⟨0, _⟩).val = 0
      omega
    | ⟨1, _⟩ => rfl
    | ⟨2, _⟩ => rfl⟩

/-- Row k's rectangle places (0, s, o) at (k, s, o). -/
theorem emb_row (k : Nat) (inb : ∀ a, (![k, 0, 0] : Fin 3 → Nat) a + S1x512x4.size a ≤ S8x512x4.size a) (j : Fin 8) (hj : j.val = k)
    (s : Fin 512) (o : Fin 4) :
    (Rect.unit (s := S8x512x4) ![k, 0, 0] S1x512x4.size inb).emb (ix3 (0 : Fin 1) s o) = ix3 j s o := by
  funext a
  apply Fin.ext
  match a with
  | ⟨0, _⟩ => show k + 1 * 0 = j.val; omega
  | ⟨1, _⟩ => show 0 + 1 * s.val = s.val; omega
  | ⟨2, _⟩ => show 0 + 1 * o.val = o.val; omega

/-- The whole block as one function of its index, given that every table word the point reads is below 10:
    row (y 0) of the block under the expert its table word names. -/
def blockFn {c : Dev nD} (i : grid0.Coords) (x0 : Vec Ideal S8x512x768 .f32) (x1 : Vec Ideal S10x768x256 .bf16) (x2 : Vec Ideal S10x1x256 .f32)
    (x3 : Vec Ideal S256x4 .bf16) (x4 : Vec Ideal S4 .f32) (xt0 : TbBuf0 (F := Ideal) c tbM0_0)
    (hW : ∀ J : Fin 8, (xt0 (ix1 (row i J))).toNat < 10) : S8x512x4.Idx → EReal :=
  fun y => rowVal x0 x1 x2 x3 x4 ⟨(xt0 (ix1 (row i ⟨(y 0).val, (y 0).isLt⟩))).toNat, hW _⟩ ⟨(y 0).val, (y 0).isLt⟩
    ⟨(y 1).val, (y 1).isLt⟩ ⟨(y 2).val, (y 2).isLt⟩

/-- What the body leaves in the output's staging buffer IS that function: each of the eight stores' values is the
    row function of its loads, and the stores cover the block. -/
theorem out_eq (c : Dev nD) (i : grid0.Coords) (arg2 : Memref sig .tc .vmem S8x512x768 .f32) (harg2 : arg2.IsWhole) (arg3 : Memref sig .tc .vmem S10x768x256 .bf16) (harg3 : arg3.IsWhole) (arg4 : Memref sig .tc .vmem S10x1x256 .f32) (harg4 : arg4.IsWhole) (arg5 : Memref sig .tc .vmem S256x4 .bf16) (harg5 : arg5.IsWhole) (arg6 : Memref sig .tc .vmem S4 .f32) (harg6 : arg6.IsWhole) (arg7 : Memref sig .tc .vmem S8x512x4 .f32) (harg7 : arg7.IsWhole)
    (x0 : Vec Ideal S8x512x768 .f32) (x1 : Vec Ideal S10x768x256 .bf16) (x2 : Vec Ideal S10x1x256 .f32) (x3 : Vec Ideal S256x4 .bf16) (x4 : Vec Ideal S4 .f32) (xt0 : TbBuf0 (F := Ideal) c tbM0_0) (k0_hw1 : k0_chk1 (tbM0_0.view.readAt (Elt Ideal) (Rect.unit (s := S64) (k0_off1 i) S1.size (k0_off1_inb i)).toLoadRect xt0 (Shape.Idx.first (numel1_S1.symm ▸ Nat.one_pos)))) (k0_hw2 : k0_chk2 (tbM0_0.view.readAt (Elt Ideal) (Rect.unit (s := S64) (k0_off4 i) S1.size (k0_off4_inb i)).toLoadRect xt0 (Shape.Idx.first (numel1_S1.symm ▸ Nat.one_pos)))) (k0_hw3 : k0_chk3 (tbM0_0.view.readAt (Elt Ideal) (Rect.unit (s := S64) (k0_off7 i) S1.size (k0_off7_inb i)).toLoadRect xt0 (Shape.Idx.first (numel1_S1.symm ▸ Nat.one_pos)))) (k0_hw4 : k0_chk4 (tbM0_0.view.readAt (Elt Ideal) (Rect.unit (s := S64) (k0_off10 i) S1.size (k0_off10_inb i)).toLoadRect xt0 (Shape.Idx.first (numel1_S1.symm ▸ Nat.one_pos)))) (k0_hw5 : k0_chk5 (tbM0_0.view.readAt (Elt Ideal) (Rect.unit (s := S64) (k0_off13 i) S1.size (k0_off13_inb i)).toLoadRect xt0 (Shape.Idx.first (numel1_S1.symm ▸ Nat.one_pos)))) (k0_hw6 : k0_chk6 (tbM0_0.view.readAt (Elt Ideal) (Rect.unit (s := S64) (k0_off16 i) S1.size (k0_off16_inb i)).toLoadRect xt0 (Shape.Idx.first (numel1_S1.symm ▸ Nat.one_pos)))) (k0_hw7 : k0_chk7 (tbM0_0.view.readAt (Elt Ideal) (Rect.unit (s := S64) (k0_off19 i) S1.size (k0_off19_inb i)).toLoadRect xt0 (Shape.Idx.first (numel1_S1.symm ▸ Nat.one_pos)))) (k0_hw8 : k0_chk8 (tbM0_0.view.readAt (Elt Ideal) (Rect.unit (s := S64) (k0_off22 i) S1.size (k0_off22_inb i)).toLoadRect xt0 (Shape.Idx.first (numel1_S1.symm ▸ Nat.one_pos))))
    (hW : ∀ J : Fin 8, (xt0 (ix1 (row i J))).toNat < 10) :
    out0_A_5 (F := Ideal) c i arg2 harg2 arg3 harg3 arg4 harg4 arg5 harg5 arg6 harg6 arg7 harg7 x0 x1 x2 x3 x4 xt0 k0_hw1 k0_hw2 k0_hw3 k0_hw4 k0_hw5 k0_hw6 k0_hw7 k0_hw8 = blockFn i x0 x1 x2 x3 x4 xt0 hW := by
  unfold out0_A_5
  rw [View.read_writes_eq_canon _ _ _ (cover0_A_5 c i arg2 harg2 arg3 harg3 arg4 harg4 arg5 harg5 arg6 harg6 arg7 harg7 x0 x1 x2 x3 x4 xt0 k0_hw1 k0_hw2 k0_hw3 k0_hw4 k0_hw5 k0_hw6 k0_hw7 k0_hw8)]
  funext y
  refine View.canon_apply_of_pieces (blockFn i x0 x1 x2 x3 x4 xt0 hW) _ ?_ y (cover0_A_5 c i arg2 harg2 arg3 harg3 arg4 harg4 arg5 harg5 arg6 harg6 arg7 harg7 x0 x1 x2 x3 x4 xt0 k0_hw1 k0_hw2 k0_hw3 k0_hw4 k0_hw5 k0_hw6 k0_hw7 k0_hw8 y)
  unfold kernelRun0_A
  dsimp only
  sl_unfold_run_names
  intro p hp x
  simp only [List.mem_cons, List.not_mem_nil, or_false] at hp
  rcases hp with rfl | rfl | rfl | rfl | rfl | rfl | rfl | rfl
  · -- row 7
    obtain ⟨s, o, rfl⟩ := split_row x
    rw [emb_row 7 _ (7 : Fin 8) rfl s o]
    exact row_value arg2 harg2 arg3 harg3 arg4 harg4 arg5 harg5 arg6 harg6 x0 x1 x2 x3 x4 7 _ _ _ _ _ _ _ (7 : Fin 8) rfl
      ⟨(xt0 (ix1 (row i 7))).toNat, hW 7⟩ (by rw [word_7]; rfl) (by rw [word_7]; rfl) s o
  · -- row 6
    obtain ⟨s, o, rfl⟩ := split_row x
    rw [emb_row 6 _ (6 : Fin 8) rfl s o]
    rw [pay1_eq]
    exact row_value arg2 harg2 arg3 harg3 arg4 harg4 arg5 harg5 arg6 harg6 x0 x1 x2 x3 x4 6 _ _ _ _ _ _ _ (6 : Fin 8) rfl
      ⟨(xt0 (ix1 (row i 6))).toNat, hW 6⟩ (by rw [word_6]; rfl) (by rw [word_6]; rfl) s o
  · -- row 5
    obtain ⟨s, o, rfl⟩ := split_row x
    rw [emb_row 5 _ (5 : Fin 8) rfl s o]
    rw [pay13_eq]
    exact row_value arg2 harg2 arg3 harg3 arg4 harg4 arg5 harg5 arg6 harg6 x0 x1 x2 x3 x4 5 _ _ _ _ _ _ _ (5 : Fin 8) rfl
      ⟨(xt0 (ix1 (row i 5))).toNat, hW 5⟩ (by rw [word_5]; rfl) (by rw [word_5]; rfl) s o
  · -- row 4
    obtain ⟨s, o, rfl⟩ := split_row x
    rw [emb_row 4 _ (4 : Fin 8) rfl s o]
    rw [pay10_eq]
    exact row_value arg2 harg2 arg3 harg3 arg4 harg4 arg5 harg5 arg6 harg6 x0 x1 x2 x3 x4 4 _ _ _ _ _ _ _ (4 : Fin 8) rfl
      ⟨(xt0 (ix1 (row i 4))).toNat, hW 4⟩ (by rw [word_4]; rfl) (by rw [word_4]; rfl) s o
  · -- row 3
    obtain ⟨s, o, rfl⟩ := split_row x
    rw [emb_row 3 _ (3 : Fin 8) rfl s o]
    rw [pay9_eq]
    exact row_value arg2 harg2 arg3 harg3 arg4 harg4 arg5 harg5 arg6 harg6 x0 x1 x2 x3 x4 3 _ _ _ _ _ _ _ (3 : Fin 8) rfl
      ⟨(xt0 (ix1 (row i 3))).toNat, hW 3⟩ (by rw [word_3]; rfl) (by rw [word_3]; rfl) s o
  · -- row 2
    obtain ⟨s, o, rfl⟩ := split_row x
    rw [emb_row 2 _ (2 : Fin 8) rfl s o]
    rw [pay8_eq]
    exact row_value arg2 harg2 arg3 harg3 arg4 harg4 arg5 harg5 arg6 harg6 x0 x1 x2 x3 x4 2 _ _ _ _ _ _ _ (2 : Fin 8) rfl
      ⟨(xt0 (ix1 (row i 2))).toNat, hW 2⟩ (by rw [word_2]; rfl) (by rw [word_2]; rfl) s o
  · -- row 1
    obtain ⟨s, o, rfl⟩ := split_row x
    rw [emb_row 1 _ (1 : Fin 8) rfl s o]
    rw [pay5_eq]
    exact row_value arg2 harg2 arg3 harg3 arg4 harg4 arg5 harg5 arg6 harg6 x0 x1 x2 x3 x4 1 _ _ _ _ _ _ _ (1 : Fin 8) rfl
      ⟨(xt0 (ix1 (row i 1))).toNat, hW 1⟩ (by rw [word_1]; rfl) (by rw [word_1]; rfl) s o
  · -- row 0
    obtain ⟨s, o, rfl⟩ := split_row x
    rw [emb_row 0 _ (0 : Fin 8) rfl s o]
    rw [pay4_eq]
    exact row_value arg2 harg2 arg3 harg3 arg4 harg4 arg5 harg5 arg6 harg6 x0 x1 x2 x3 x4 0 _ _ _ _ _ _ _ (0 : Fin 8) rfl
      ⟨(xt0 (ix1 (row i 0))).toNat, hW 0⟩ (by rw [word_0]; rfl) (by rw [word_0]; rfl) s o

end Cert.KernelIdeal.Block

end
-- ==== Proof.Routed.lean ====
/-
  The function of the argument arrays that both programs compute, index by index over the extended reals.

  A token (b, s) is a row of 768 features. Its batch row b names an expert c = corpus[b]. The hidden layer has 256
  units: unit h < 128 uses the SHARED weight column sh_w[:, h] and bias sh_b[h]; unit h ≥ 128 uses the expert's own
  column dp_w[c, :, h − 128] and bias dp_b[c, h − 128]. Each unit is relu (⟨x, w_h⟩ + b_h); the four outputs are
  ⟨hidden, fc_w[:, o]⟩ + fc_b[o].
-/
import Idealize.ShloMosaic.PureOps.Ideal
import Idealize.ShloMosaic.Lib.ValueIdx

noncomputable section

open scoped BigOperators

namespace Cert.Routed

open Idealize.ShloMosaic Idealize.ShloMosaic.ValueIdx

/-- The expert a corpus word names: the word read as a natural number, at most 9. -/
def expert (w : BitVec 32) : Fin 10 := ⟨min w.toNat 9, by omega⟩

/-- A word below 10 names itself. -/
theorem expert_val_of_lt (w : BitVec 32) (h : w.toNat < 10) : (expert w).val = w.toNat := by
  show min w.toNat 9 = w.toNat
  omega

/-- Entry (e, h) of expert c's 768 × 256 weight: the shared weight in columns 0 … 127, the expert's own in
    columns 128 … 255. -/
def wcol (dpw : (⟨3, ![10, 768, 128]⟩ : Shape).Idx → EReal) (shw : (⟨2, ![768, 128]⟩ : Shape).Idx → EReal)
    (c : Fin 10) (e : Fin 768) (h : Fin 256) : EReal :=
  if hh : h.val < 128 then shw (ix2 e ⟨h.val, hh⟩) else dpw (ix3 c e ⟨h.val - 128, by omega⟩)

/-- Entry h of expert c's bias of length 256: the shared bias first, then the expert's own. -/
def bcol (dpb : (⟨2, ![10, 128]⟩ : Shape).Idx → EReal) (shb : (⟨1, ![128]⟩ : Shape).Idx → EReal)
    (c : Fin 10) (h : Fin 256) : EReal :=
  if hh : h.val < 128 then shb (ix1 ⟨h.val, hh⟩) else dpb (ix2 c ⟨h.val - 128, by omega⟩)

/-- Hidden unit h of token (b, s) under expert c: relu of the token's inner product with column h plus bias h. -/
def hidden (words : (⟨3, ![64, 512, 768]⟩ : Shape).Idx → EReal)
    (dpw : (⟨3, ![10, 768, 128]⟩ : Shape).Idx → EReal) (dpb : (⟨2, ![10, 128]⟩ : Shape).Idx → EReal)
    (shw : (⟨2, ![768, 128]⟩ : Shape).Idx → EReal) (shb : (⟨1, ![128]⟩ : Shape).Idx → EReal)
    (c : Fin 10) (b : Fin 64) (s : Fin 512) (h : Fin 256) : EReal :=
  max ((∑ e : Fin 768, words (ix3 b s e) * wcol dpw shw c e h) + bcol dpb shb c h) 0

/-- Output o of token (b, s): the hidden layer under the batch row's expert against column o of fc_w, plus fc_b[o]. -/
def Gat (words : (⟨3, ![64, 512, 768]⟩ : Shape).Idx → EReal) (corpus : (⟨1, ![64]⟩ : Shape).Idx → BitVec 32)
    (dpw : (⟨3, ![10, 768, 128]⟩ : Shape).Idx → EReal) (dpb : (⟨2, ![10, 128]⟩ : Shape).Idx → EReal)
    (shw : (⟨2, ![768, 128]⟩ : Shape).Idx → EReal) (shb : (⟨1, ![128]⟩ : Shape).Idx → EReal)
    (fcw : (⟨2, ![256, 4]⟩ : Shape).Idx → EReal) (fcb : (⟨1, ![4]⟩ : Shape).Idx → EReal)
    (b : Fin 64) (s : Fin 512) (o : Fin 4) : EReal :=
  (∑ h : Fin 256, hidden words dpw dpb shw shb (expert (corpus (ix1 b))) b s h * fcw (ix2 h o)) + fcb (ix1 o)

/-- The whole result array. -/
def G (words : (⟨3, ![64, 512, 768]⟩ : Shape).Idx → EReal) (corpus : (⟨1, ![64]⟩ : Shape).Idx → BitVec 32)
    (dpw : (⟨3, ![10, 768, 128]⟩ : Shape).Idx → EReal) (dpb : (⟨2, ![10, 128]⟩ : Shape).Idx → EReal)
    (shw : (⟨2, ![768, 128]⟩ : Shape).Idx → EReal) (shb : (⟨1, ![128]⟩ : Shape).Idx → EReal)
    (fcw : (⟨2, ![256, 4]⟩ : Shape).Idx → EReal) (fcb : (⟨1, ![4]⟩ : Shape).Idx → EReal) :
    (⟨3, ![64, 512, 4]⟩ : Shape).Idx → EReal :=
  fun i => Gat words corpus dpw dpb shw shb fcw fcb ⟨(i 0).val, (i 0).isLt⟩ ⟨(i 1).val, (i 1).isLt⟩ ⟨(i 2).val, (i 2).isLt⟩

theorem G_ix3 (words : (⟨3, ![64, 512, 768]⟩ : Shape).Idx → EReal) (corpus : (⟨1, ![64]⟩ : Shape).Idx → BitVec 32)
    (dpw : (⟨3, ![10, 768, 128]⟩ : Shape).Idx → EReal) (dpb : (⟨2, ![10, 128]⟩ : Shape).Idx → EReal)
    (shw : (⟨2, ![768, 128]⟩ : Shape).Idx → EReal) (shb : (⟨1, ![128]⟩ : Shape).Idx → EReal)
    (fcw : (⟨2, ![256, 4]⟩ : Shape).Idx → EReal) (fcb : (⟨1, ![4]⟩ : Shape).Idx → EReal)
    (b : Fin 64) (s : Fin 512) (o : Fin 4) :
    G words corpus dpw dpb shw shb fcw fcb (ix3 b s o) = Gat words corpus dpw dpb shw shb fcw fcb b s o := rfl

end Cert.Routed

end
-- ==== Proof.KernelHost.lean ====
/-
  What the host operations before the region leave in the three arrays the region stages, over the extended reals,
  read index by index.

  The fused weight table is the concatenation, along the last axis, of the shared weight copied to every expert and the
  experts' own weights: entry (x, e, h) is sh_w[e, h] for h < 128 and dp_w[x, e, h − 128] otherwise. The fused bias
  table is the same concatenation of the shared bias copied to every expert and the experts' own biases, with a unit
  middle axis inserted. A change of float format is the identity over the extended reals, so the narrowed fc_w is fc_w.
-/
import proofs.«417747_j49563922596676_3_alg».proof.Proof.Gen.KernelIdeal.Frame
import proofs.«417747_j49563922596676_3_alg».proof.Proof.Routed
import Idealize.ShloMosaic.Lib.Pipeline.Value
import Idealize.ShloMosaic.Lib.ValueIdx
import Idealize.ShloMosaic.Lib.StableHlo.Run

noncomputable section

namespace Cert.KernelIdeal.Host

open Cert.KernelIdeal Cert.KernelIdeal.Gen Idealize.ShloMosaic Idealize.ShloMosaic.TcCoe Idealize.SL.Sem
  Idealize.ShloMosaic.ValueIdx

/-! ## The operations' terms at an index, over variables -/

/-- The shared weight given a unit leading axis and then copied along it to the ten experts reads, at (x, e, k), the
    shared weight at (e, k). -/
theorem bcast_shw_apply (shw : S768x128.Idx → EReal) (x : Fin 10) (e : Fin 768) (k : Fin 128) :
    broadcastInDim S10x768x128 ![0, 1, 2] bcast_S1x768x128_S10x768x128_0_1_2
        (broadcastInDim S1x768x128 ![1, 2] bcast_S768x128_S1x768x128_1_2 shw) (ix3 x e k)
      = shw (ix2 e k) := by
  refine (broadcastInDim_apply _ bcast_S1x768x128_S10x768x128_0_1_2 _ (ix3 x e k) (ix3 (0 : Fin 1) e k)
    (fun a => match a with
      | ⟨0, _⟩ => by show (0 : Nat) = if (1 : Nat) = 1 then 0 else x.val; rw [if_pos rfl]
      | ⟨1, _⟩ => by show e.val = if (768 : Nat) = 1 then 0 else e.val; rw [if_neg (by decide)]
      | ⟨2, _⟩ => by show k.val = if (128 : Nat) = 1 then 0 else k.val; rw [if_neg (by decide)])).trans ?_
  exact broadcastInDim_apply _ bcast_S768x128_S1x768x128_1_2 shw (ix3 (0 : Fin 1) e k) (ix2 e k)
    (fun a => match a with
      | ⟨0, _⟩ => by show e.val = if (768 : Nat) = 1 then 0 else e.val; rw [if_neg (by decide)]
      | ⟨1, _⟩ => by show k.val = if (128 : Nat) = 1 then 0 else k.val; rw [if_neg (by decide)])

/-- The shared bias given a unit leading axis and then copied along it to the ten experts reads, at (x, k), the shared
    bias at k. -/
theorem bcast_shb_apply (shb : S128.Idx → EReal) (x : Fin 10) (k : Fin 128) :
    broadcastInDim S10x128 ![0, 1] bcast_S1x128_S10x128_0_1
        (broadcastInDim S1x128 ![1] bcast_S128_S1x128_1 shb) (ix2 x k)
      = shb (ix1 k) := by
  refine (broadcastInDim_apply _ bcast_S1x128_S10x128_0_1 _ (ix2 x k) (ix2 (0 : Fin 1) k)
    (fun a => match a with
      | ⟨0, _⟩ => by show (0 : Nat) = if (1 : Nat) = 1 then 0 else x.val; rw [if_pos rfl]
      | ⟨1, _⟩ => by show k.val = if (128 : Nat) = 1 then 0 else k.val; rw [if_neg (by decide)])).trans ?_
  exact broadcastInDim_apply _ bcast_S128_S1x128_1 shb (ix2 (0 : Fin 1) k) (ix1 k)
    (fun a => match a with
      | ⟨0, _⟩ => by show k.val = if (128 : Nat) = 1 then 0 else k.val; rw [if_neg (by decide)])

/-- The fused weight's term at (x, e, h): the shared weight's column h below 128, the expert's own column h − 128
    from 128 on. -/
theorem combw_term_apply (shw : S768x128.Idx → EReal) (dpw : S10x768x128.Idx → EReal)
    (x : Fin 10) (e : Fin 768) (h : Fin 256) :
    concatenate S10x768x256 2
        [⟨S10x768x128, broadcastInDim S10x768x128 ![0, 1, 2] bcast_S1x768x128_S10x768x128_0_1_2
            (broadcastInDim S1x768x128 ![1, 2] bcast_S768x128_S1x768x128_1_2 shw)⟩,
          ⟨S10x768x128, dpw⟩]
        concatenates_S10x768x128_S10x768x128_S10x768x256_d2 (ix3 x e h)
      = Cert.Routed.wcol dpw shw x e h := by
  unfold Cert.Routed.wcol
  by_cases hh : h.val < 128
  · rw [dif_pos hh]
    refine (concatenate_pair_apply_left (t := S10x768x256) (s₁ := S10x768x128) (s₂ := S10x768x128) (2 : Fin 3) _ _
      concatenates_S10x768x128_S10x768x128_S10x768x256_d2 (ix3 x e h) rfl (ix3 x e (⟨h.val, hh⟩ : Fin 128))
      (fun b => match b with
        | ⟨0, _⟩ => rfl
        | ⟨1, _⟩ => rfl
        | ⟨2, _⟩ => rfl)).trans ?_
    exact bcast_shw_apply shw x e ⟨h.val, hh⟩
  · rw [dif_neg hh]
    exact concatenate_pair_apply_right (t := S10x768x256) (s₁ := S10x768x128) (s₂ := S10x768x128) (2 : Fin 3) _ _
      concatenates_S10x768x128_S10x768x128_S10x768x256_d2 (ix3 x e h) rfl rfl
      (ix3 x e (⟨h.val - 128, by omega⟩ : Fin 128))
      (fun b hb => match b with
        | ⟨0, _⟩ => rfl
        | ⟨1, _⟩ => rfl
        | ⟨2, _⟩ => absurd rfl hb)
      (by show h.val - 128 + 128 = h.val; omega)

/-- The fused bias's term at (x, 0, h): the shared bias's entry h below 128, the expert's own entry h − 128 from 128
    on. -/
theorem combb_term_apply (shb : S128.Idx → EReal) (dpb : S10x128.Idx → EReal) (x : Fin 10) (h : Fin 256) :
    broadcastInDim S10x1x256 ![0, 2] bcast_S10x256_S10x1x256_0_2
        (concatenate S10x256 1
          [⟨S10x128, broadcastInDim S10x128 ![0, 1] bcast_S1x128_S10x128_0_1
              (broadcastInDim S1x128 ![1] bcast_S128_S1x128_1 shb)⟩,
            ⟨S10x128, dpb⟩]
          concatenates_S10x128_S10x128_S10x256_d1) (ix3 x (0 : Fin 1) h)
      = Cert.Routed.bcol dpb shb x h := by
  refine (broadcastInDim_apply _ bcast_S10x256_S10x1x256_0_2 _ (ix3 x (0 : Fin 1) h) (ix2 x h)
    (fun a => match a with
      | ⟨0, _⟩ => by show x.val = if (10 : Nat) = 1 then 0 else x.val; rw [if_neg (by decide)]
      | ⟨1, _⟩ => by show h.val = if (256 : Nat) = 1 then 0 else h.val; rw [if_neg (by decide)])).trans ?_
  unfold Cert.Routed.bcol
  by_cases hh : h.val < 128
  · rw [dif_pos hh]
    refine (concatenate_pair_apply_left (t := S10x256) (s₁ := S10x128) (s₂ := S10x128) (1 : Fin 2) _ _
      concatenates_S10x128_S10x128_S10x256_d1 (ix2 x h) rfl (ix2 x (⟨h.val, hh⟩ : Fin 128))
      (fun b => match b with
        | ⟨0, _⟩ => rfl
        | ⟨1, _⟩ => rfl)).trans ?_
    exact bcast_shb_apply shb x ⟨h.val, hh⟩
  · rw [dif_neg hh]
    exact concatenate_pair_apply_right (t := S10x256) (s₁ := S10x128) (s₂ := S10x128) (1 : Fin 2) _ _
      concatenates_S10x128_S10x128_S10x256_d1 (ix2 x h) rfl rfl
      (ix2 x (⟨h.val - 128, by omega⟩ : Fin 128))
      (fun b hb => match b with
        | ⟨0, _⟩ => rfl
        | ⟨1, _⟩ => absurd rfl hb)
      (by show h.val - 128 + 128 = h.val; omega)

/-! ## The staged arrays as the region finds them -/

variable (m : (ℓ : Loc nD τ sig) → Buf (Elt Ideal) ℓ)

/-- the fused weight table as the region finds it: Routed.wcol of dp_w and sh_w -/
theorem combw_apply (c : Dev nD) (x : Fin 10) (e : Fin 768) (h : Fin 256) :
    (V m c main_v4 : S10x768x256.Idx → EReal) (ix3 x e h)
      = Cert.Routed.wcol (m ((c : Thread nD τ).loc main_arg2)) (m ((c : Thread nD τ).loc main_arg4)) x e h := by
  have e4 : (V m c main_v4 : S10x768x256.Idx → EReal)
      = truncf (F := Ideal) .bf16 (concatenate S10x768x256 2
          [⟨S10x768x128, broadcastInDim S10x768x128 ![0, 1, 2] bcast_S1x768x128_S10x768x128_0_1_2
              (broadcastInDim S1x768x128 ![1, 2] bcast_S768x128_S1x768x128_1_2
                (m ((c : Thread nD τ).loc main_arg4) : S768x128.Idx → EReal))⟩,
            ⟨S10x768x128, (m ((c : Thread nD τ).loc main_arg2) : S10x768x128.Idx → EReal)⟩]
          concatenates_S10x768x128_S10x768x128_S10x768x256_d2) bitsLt_bf16_f32 := by
    dsimp only [V]
    simp only [hostOps0, hostOps0_1, hostOps0_2, List.flatten_cons, List.flatten_nil, List.append_nil,
      List.cons_append, List.nil_append]
    after_results
  rw [e4]
  exact combw_term_apply _ _ x e h

/-- the fused bias table: Routed.bcol of dp_b and sh_b -/
theorem combb_apply (c : Dev nD) (x : Fin 10) (h : Fin 256) :
    (V m c main_v8 : S10x1x256.Idx → EReal) (ix3 x (0 : Fin 1) h)
      = Cert.Routed.bcol (m ((c : Thread nD τ).loc main_arg3)) (m ((c : Thread nD τ).loc main_arg5)) x h := by
  have e8 : (V m c main_v8 : S10x1x256.Idx → EReal)
      = broadcastInDim S10x1x256 ![0, 2] bcast_S10x256_S10x1x256_0_2
          (concatenate S10x256 1
            [⟨S10x128, broadcastInDim S10x128 ![0, 1] bcast_S1x128_S10x128_0_1
                (broadcastInDim S1x128 ![1] bcast_S128_S1x128_1
                  (m ((c : Thread nD τ).loc main_arg5) : S128.Idx → EReal))⟩,
              ⟨S10x128, (m ((c : Thread nD τ).loc main_arg3) : S10x128.Idx → EReal)⟩]
            concatenates_S10x128_S10x128_S10x256_d1) := by
    dsimp only [V]
    simp only [hostOps0, hostOps0_1, hostOps0_2, List.flatten_cons, List.flatten_nil, List.append_nil,
      List.cons_append, List.nil_append]
    after_results
  rw [e8]
  exact combb_term_apply _ _ x h

/-- fc_w in the narrower format is fc_w -/
theorem fcw_eq (c : Dev nD) : (V m c main_v9 : S256x4.Idx → EReal) = m ((c : Thread nD τ).loc main_arg6) := by
  dsimp only [V]
  simp only [hostOps0, hostOps0_1, hostOps0_2, List.flatten_cons, List.flatten_nil, List.append_nil,
    List.cons_append, List.nil_append]
  after_results
  rfl

end Cert.KernelIdeal.Host

end
-- ==== Proof.KernelValue.lean ====
/-
  The idealized kernel's result array, as one function of the argument arrays.

  The grid has eight points; point t stages rows 8t … 8t+7 of the tokens and of the output, and the whole weight,
  bias and fc tables. What the body leaves at point t is the block function of KernelBlock.lean of those blocks and
  of the table words at rows 8t … 8t+7; the tables hold the corpus words (all below 10), the weight and bias tables
  are the shared and the experts' own halves side by side, so block t of the output is block t of the specification
  Routed.G of the argument arrays, and the eight blocks tile the array.
-/
import proofs.«417747_j49563922596676_3_alg».proof.Proof.KernelBlock
import proofs.«417747_j49563922596676_3_alg».proof.Proof.KernelHost
import proofs.«417747_j49563922596676_3_alg».proof.Proof.Routed
import Idealize.ShloMosaic.Lib.Pipeline.Value
import Idealize.ShloMosaic.Lib.ValueIdx

set_option maxRecDepth 16384

noncomputable section

open scoped BigOperators

namespace Cert.KernelIdeal.Routing

open Cert.KernelIdeal Cert.KernelIdeal.Gen Cert.KernelIdeal.Table Cert.KernelIdeal.Block Cert.KernelIdeal.Host
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the grid, at any contents of the table (no map reads it): the tokens' and the
    output's block index is (t, 0, 0); the four tables are staged whole. -/
theorem idx_facts (a : (pcfg0 (F := Ideal)).Adm) : ∀ t : Fin (cfg0 a).N,
    ((cfg0 a).win 0).index t (0 : Fin 3) = t.val ∧ ((cfg0 a).win 0).index t (1 : Fin 3) = 0 ∧ ((cfg0 a).win 0).index t (2 : Fin 3) = 0
    ∧ ((cfg0 a).win 1).index t (0 : Fin 3) = 0 ∧ ((cfg0 a).win 1).index t (1 : Fin 3) = 0 ∧ ((cfg0 a).win 1).index t (2 : Fin 3) = 0
    ∧ ((cfg0 a).win 2).index t (0 : Fin 3) = 0 ∧ ((cfg0 a).win 2).index t (1 : Fin 3) = 0 ∧ ((cfg0 a).win 2).index t (2 : Fin 3) = 0
    ∧ ((cfg0 a).win 3).index t (0 : Fin 2) = 0 ∧ ((cfg0 a).win 3).index t (1 : Fin 2) = 0
    ∧ ((cfg0 a).win 4).index t (0 : Fin 1) = 0
    ∧ ((cfg0 a).win 5).index t (0 : Fin 3) = t.val ∧ ((cfg0 a).win 5).index t (1 : Fin 3) = 0 ∧ ((cfg0 a).win 5).index t (2 : Fin 3) = 0 :=
  (by decide +kernel : ∀ t : Fin grid0.N,
    cc0_transform_0 (grid0.coords t) (0 : Fin 3) = t.val ∧ cc0_transform_0 (grid0.coords t) (1 : Fin 3) = 0 ∧ cc0_transform_0 (grid0.coords t) (2 : Fin 3) = 0
    ∧ cc0_transform_1 (grid0.coords t) (0 : Fin 3) = 0 ∧ cc0_transform_1 (grid0.coords t) (1 : Fin 3) = 0 ∧ cc0_transform_1 (grid0.coords t) (2 : Fin 3) = 0
    ∧ cc0_transform_2 (grid0.coords t) (0 : Fin 3) = 0 ∧ cc0_transform_2 (grid0.coords t) (1 : Fin 3) = 0 ∧ cc0_transform_2 (grid0.coords t) (2 : Fin 3) = 0
    ∧ cc0_transform_3 (grid0.coords t) (0 : Fin 2) = 0 ∧ cc0_transform_3 (grid0.coords t) (1 : Fin 2) = 0
    ∧ cc0_transform_4 (grid0.coords t) (0 : Fin 1) = 0
    ∧ cc0_transform_5 (grid0.coords t) (0 : Fin 3) = t.val ∧ cc0_transform_5 (grid0.coords t) (1 : Fin 3) = 0 ∧ cc0_transform_5 (grid0.coords t) (2 : Fin 3) = 0)

/-- The grid point's one coordinate is its number. -/
theorem coords_val : ∀ t : Fin grid0.N, ((grid0.coords t) 0).val = t.val := by decide +kernel

/-! ## The staged blocks, read at an index -/

/-- A grid point's number is below 8. -/
theorem tlt (t : Fin (cfgM m (ok m)).N) : t.val < 8 := by
  have h : (cfgM m (ok m)).N = 8 := N_0
  have := t.isLt
  omega

/-- Batch row 8t + j. -/
noncomputable def brow (t : Fin (cfgM m (ok m)).N) (j : Fin 8) : Fin 64 := ⟨8 * t.val + j.val, by have := tlt m t; have := j.isLt; omega⟩

/-- The blocks the body is called with at point t, each at its literal type. -/
abbrev xblk (c : Dev nD) (t : Fin (cfgM m (ok m)).N) : Vec Ideal S8x512x768 .f32 := iblk m (ok m) c 0 t
abbrev wblk (c : Dev nD) (t : Fin (cfgM m (ok m)).N) : Vec Ideal S10x768x256 .bf16 := iblk m (ok m) c 1 t
abbrev bblk (c : Dev nD) (t : Fin (cfgM m (ok m)).N) : Vec Ideal S10x1x256 .f32 := iblk m (ok m) c 2 t
abbrev fblk (c : Dev nD) (t : Fin (cfgM m (ok m)).N) : Vec Ideal S256x4 .bf16 := iblk m (ok m) c 3 t
abbrev cblk (c : Dev nD) (t : Fin (cfgM m (ok m)).N) : Vec Ideal S4 .f32 := iblk m (ok m) c 4 t

/-- Row j of the tokens' block at point t is batch row 8t + j of the tokens. -/
theorem xblk_apply (c : Dev nD) (t : Fin (cfgM m (ok m)).N) (j : Fin 8) (s : Fin 512) (e : Fin 768) :
    xblk m c t (ix3 j s e) = m ((c : Thread nD τ).loc main_arg0) (ix3 (brow m t j) s e) := by
  obtain ⟨e0, e1, e2, -⟩ := idx_facts (adm m (ok m)) t
  rw [← V_main_arg0 m c]
  show V m c main_arg0 ((((cfgM m (ok m)).win 0).blk t).view.emb (ix3 j s e)) = V m c main_arg0 (ix3 (brow m t j) s e)
  refine congrArg (V m c main_arg0) (funext fun a => Fin.ext ?_)
  match a with
  | ⟨0, _⟩ => show ((cfg0 (adm m (ok m))).win 0).index t (0 : Fin 3) * 8 + 1 * j.val = 8 * t.val + j.val; rw [e0]; omega
  | ⟨1, _⟩ => show ((cfg0 (adm m (ok m))).win 0).index t (1 : Fin 3) * 512 + 1 * s.val = s.val; rw [e1]; omega
  | ⟨2, _⟩ => show ((cfg0 (adm m (ok m))).win 0).index t (2 : Fin 3) * 768 + 1 * e.val = e.val; rw [e2]; omega

/-- The weight table is staged whole. -/
theorem wblk_apply (c : Dev nD) (t : Fin (cfgM m (ok m)).N) (n : Fin 10) (e : Fin 768) (h : Fin 256) :
    wblk m c t (ix3 n e h) = (V m c main_v4 : S10x768x256.Idx → EReal) (ix3 n e h) := by
  obtain ⟨-, -, -, e0, e1, e2, -⟩ := idx_facts (adm m (ok m)) t
  show V m c main_v4 ((((cfgM m (ok m)).win 1).blk t).view.emb (ix3 n e h)) = V m c main_v4 (ix3 n e h)
  refine congrArg (V m c main_v4) (funext fun a => Fin.ext ?_)
  match a with
  | ⟨0, _⟩ => show ((cfg0 (adm m (ok m))).win 1).index t (0 : Fin 3) * 10 + 1 * n.val = n.val; rw [e0]; omega
  | ⟨1, _⟩ => show ((cfg0 (adm m (ok m))).win 1).index t (1 : Fin 3) * 768 + 1 * e.val = e.val; rw [e1]; omega
  | ⟨2, _⟩ => show ((cfg0 (adm m (ok m))).win 1).index t (2 : Fin 3) * 256 + 1 * h.val = h.val; rw [e2]; omega

/-- The bias table is staged whole. -/
theorem bblk_apply (c : Dev nD) (t : Fin (cfgM m (ok m)).N) (n : Fin 10) (h : Fin 256) :
    bblk m c t (ix3 n (0 : Fin 1) h) = (V m c main_v8 : S10x1x256.Idx → EReal) (ix3 n (0 : Fin 1) h) := by
  obtain ⟨-, -, -, -, -, -, e0, e1, e2, -⟩ := idx_facts (adm m (ok m)) t
  show V m c main_v8 ((((cfgM m (ok m)).win 2).blk t).view.emb (ix3 n (0 : Fin 1) h)) = V m c main_v8 (ix3 n (0 : Fin 1) h)
  refine congrArg (V m c main_v8) (funext fun a => Fin.ext ?_)
  match a with
  | ⟨0, _⟩ => show ((cfg0 (adm m (ok m))).win 2).index t (0 : Fin 3) * 10 + 1 * n.val = n.val; rw [e0]; omega
  | ⟨1, _⟩ => show ((cfg0 (adm m (ok m))).win 2).index t (1 : Fin 3) * 1 + 1 * 0 = 0; rw [e1]
  | ⟨2, _⟩ => show ((cfg0 (adm m (ok m))).win 2).index t (2 : Fin 3) * 256 + 1 * h.val = h.val; rw [e2]; omega

/-- fc_w (in the narrower format) is staged whole. -/
theorem fblk_apply (c : Dev nD) (t : Fin (cfgM m (ok m)).N) (h : Fin 256) (o : Fin 4) :
    fblk m c t (ix2 h o) = (V m c main_v9 : S256x4.Idx → EReal) (ix2 h o) := by
  obtain ⟨-, -, -, -, -, -, -, -, -, e0, e1, -⟩ := idx_facts (adm m (ok m)) t
  show V m c main_v9 ((((cfgM m (ok m)).win 3).blk t).view.emb (ix2 h o)) = V m c main_v9 (ix2 h o)
  refine congrArg (V m c main_v9) (funext fun a => Fin.ext ?_)
  match a with
  | ⟨0, _⟩ => show ((cfg0 (adm m (ok m))).win 3).index t (0 : Fin 2) * 256 + 1 * h.val = h.val; rw [e0]; omega
  | ⟨1, _⟩ => show ((cfg0 (adm m (ok m))).win 3).index t (1 : Fin 2) * 4 + 1 * o.val = o.val; rw [e1]; omega

/-- fc_b is staged whole. -/
theorem cblk_apply (c : Dev nD) (t : Fin (cfgM m (ok m)).N) (o : Fin 4) :
    cblk m c t (ix1 o) = m ((c : Thread nD τ).loc main_arg7) (ix1 o) := by
  obtain ⟨-, -, -, -, -, -, -, -, -, -, -, e0, -⟩ := idx_facts (adm m (ok m)) t
  rw [← V_main_arg7 m c]
  show V m c main_arg7 ((((cfgM m (ok m)).win 4).blk t).view.emb (ix1 o)) = V m c main_arg7 (ix1 o)
  refine congrArg (V m c main_arg7) (funext fun a => Fin.ext ?_)
  match a with
  | ⟨0, _⟩ => show ((cfg0 (adm m (ok m))).win 4).index t (0 : Fin 1) * 4 + 1 * o.val = o.val; rw [e0]; omega

/-! ## What each point leaves -/

/-- Every table word a point reads is below 10. -/
theorem tbl_lt (hw : ∀ b : Fin 64, (m (((0 : Dev nD) : Thread nD τ).loc main_arg1) (ix1 b)).toNat < 10) (i : grid0.Coords) (J : Fin 8) : (tbl m 0 (ix1 (row i J))).toNat < 10 := by
  rw [tbl_apply m hw]; exact hw _

/-- What the body leaves at point t is the block function of the staged blocks and the table. -/
theorem outsAt_eq (hw : ∀ b : Fin 64, (m (((0 : Dev nD) : Thread nD τ).loc main_arg1) (ix1 b)).toNat < 10) (c : Dev nD) (t : Fin (cfgM m (ok m)).N) :
    outsAt0 m (ok m) (hyps m hw (ok m)) c t
      = blockFn (c := c) (grid0.coords t) (xblk m c t) (wblk m c t) (bblk m c t) (fblk m c t) (cblk m c t) (tbl m 0) (tbl_lt m hw (grid0.coords t)) := by
  unfold outsAt0
  exact out_eq c (grid0.coords t) (ms0_0 m (ok m) t) (hs0_0 m (ok m) t) (ms0_1 m (ok m) t) (hs0_1 m (ok m) t) (ms0_2 m (ok m) t) (hs0_2 m (ok m) t)
    (ms0_3 m (ok m) t) (hs0_3 m (ok m) t) (ms0_4 m (ok m) t) (hs0_4 m (ok m) t) (ms0_5 m (ok m) t) (hs0_5 m (ok m) t)
    (xblk m c t) (wblk m c t) (bblk m c t) (fblk m c t) (cblk m c t) (tbl m 0)
    (Hyps.c0 (hyps m hw (ok m)) c t) (Hyps.c1 (hyps m hw (ok m)) c t) (Hyps.c2 (hyps m hw (ok m)) c t) (Hyps.c3 (hyps m hw (ok m)) c t)
    (Hyps.c4 (hyps m hw (ok m)) c t) (Hyps.c5 (hyps m hw (ok m)) c t) (Hyps.c6 (hyps m hw (ok m)) c t) (Hyps.c7 (hyps m hw (ok m)) c t)
    (tbl_lt m hw (grid0.coords t))

/-! ## Each block of the output is a block of the specification -/

/-- The specification of core c's argument arrays. -/
abbrev spec (c : Dev nD) : S64x512x4.Idx → EReal :=
  Cert.Routed.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The expert the table names for row j of point t is the one the corpus word of batch row 8t + j names. -/
theorem expert_eq (hw : ∀ b : Fin 64, (m (((0 : Dev nD) : Thread nD τ).loc main_arg1) (ix1 b)).toNat < 10) (c : Dev nD) (t : Fin (cfgM m (ok m)).N) (j : Fin 8) :
    (⟨(tbl m 0 (ix1 (row (grid0.coords t) j))).toNat, tbl_lt m hw (grid0.coords t) j⟩ : Fin 10)
      = Cert.Routed.expert (m ((c : Thread nD τ).loc main_arg1) (ix1 (brow m t j))) := by
  obtain rfl : c = 0 := Subsingleton.elim _ _
  have hr : row (grid0.coords t) j = brow m t j :=
    Fin.ext (by show 8 * ((grid0.coords t) 0).val + j.val = 8 * t.val + j.val; rw [coords_val t])
  apply Fin.ext
  rw [Cert.Routed.expert_val_of_lt _ (hw _)]
  show (tbl m 0 (ix1 (row (grid0.coords t) j))).toNat = _
  rw [tbl_apply m hw, hr]

/-- Row j of point t's block at (s, o) is the specification at batch row 8t + j. -/
theorem block_apply (hw : ∀ b : Fin 64, (m (((0 : Dev nD) : Thread nD τ).loc main_arg1) (ix1 b)).toNat < 10) (c : Dev nD) (t : Fin (cfgM m (ok m)).N) (j : Fin 8) (s : Fin 512) (o : Fin 4) :
    blockFn (c := c) (grid0.coords t) (xblk m c t) (wblk m c t) (bblk m c t) (fblk m c t) (cblk m c t) (tbl m 0)
        (tbl_lt m hw (grid0.coords t)) (ix3 j s o)
      = spec m c (ix3 (brow m t j) s o) := by
  show rowVal (xblk m c t) (wblk m c t) (bblk m c t) (fblk m c t) (cblk m c t)
      ⟨(tbl m 0 (ix1 (row (grid0.coords t) j))).toNat, tbl_lt m hw (grid0.coords t) j⟩ j s o = _
  refine (congrArg (fun n => rowVal (xblk m c t) (wblk m c t) (bblk m c t) (fblk m c t) (cblk m c t) n j s o)
    (expert_eq m hw c t j)).trans ?_
  refine Eq.trans ?_ (Cert.Routed.G_ix3 _ _ _ _ _ _ _ _ (brow m t j) s o).symm
  unfold rowVal Cert.Routed.Gat Cert.Routed.hidden
  simp only [xblk_apply, wblk_apply, bblk_apply, fblk_apply, cblk_apply]
  refine congrArg (· + m ((c : Thread nD τ).loc main_arg7) (ix1 o)) (Finset.sum_congr rfl fun h _ => ?_)
  rw [combb_apply m c, congrFun (fcw_eq m c) (ix2 h o)]
  refine congrArg (fun z => max (z + Cert.Routed.bcol (m ((c : Thread nD τ).loc main_arg3)) (m ((c : Thread nD τ).loc main_arg5))
      (Cert.Routed.expert (m ((c : Thread nD τ).loc main_arg1) (ix1 (brow m t j)))) h) 0 * m ((c : Thread nD τ).loc main_arg6) (ix2 h o))
    (Finset.sum_congr rfl fun e _ => ?_)
  rw [combw_apply m c]

/-- What point t writes back is block t of the specification. -/
theorem flushed_eq (hw : ∀ b : Fin 64, (m (((0 : Dev nD) : Thread nD τ).loc main_arg1) (ix1 b)).toNat < 10) (c : Dev nD) (t : Fin (cfgM m (ok m)).N) :
    (dats m (ok m) (hyps m hw (ok m)) 0 c).flushed 5 t
      = (((cfgM m (ok m)).win 5).blk t).view.read (Elt Ideal) (spec m c) := by
  show ((cfgM m (ok m)).win 5).cut (grid0.coords t) ((dats m (ok m) (hyps m hw (ok m)) 0 c).after 5 t) = _
  rw [after0_5, outsAt_eq m hw c t]
  refine funext fun (y : S8x512x4.Idx) => ?_
  show blockFn (c := c) (grid0.coords t) (xblk m c t) (wblk m c t) (bblk m c t) (fblk m c t) (cblk m c t) (tbl m 0)
      (tbl_lt m hw (grid0.coords t)) y = spec m c ((((cfgM m (ok m)).win 5).blk t).view.emb y)
  obtain ⟨j, s, o, rfl⟩ : ∃ (j : Fin 8) (s : Fin 512) (o : Fin 4), y = ix3 j s o := ⟨y 0, y 1, y 2, eq_ix3 y⟩
  obtain ⟨-, -, -, -, -, -, -, -, -, -, -, -, e0, e1, e2⟩ := idx_facts (adm m (ok m)) t
  have he : (((cfgM m (ok m)).win 5).blk t).view.emb (ix3 j s o) = ix3 (brow m t j) s o := by
    funext a
    apply Fin.ext
    match a with
    | ⟨0, _⟩ => show ((cfg0 (adm m (ok m))).win 5).index t (0 : Fin 3) * 8 + 1 * j.val = 8 * t.val + j.val; rw [e0]; omega
    | ⟨1, _⟩ => show ((cfg0 (adm m (ok m))).win 5).index t (1 : Fin 3) * 512 + 1 * s.val = s.val; rw [e1]; omega
    | ⟨2, _⟩ => show ((cfg0 (adm m (ok m))).win 5).index t (2 : Fin 3) * 4 + 1 * o.val = o.val; rw [e2]; omega
  rw [he]
  exact block_apply m hw c t j s o

/-! ## The array after the run -/

/-- The point whose block holds batch row (i 0): its eighth. -/
noncomputable def ptOf (i : S64x512x4.Idx) : Fin (cfgM m (ok m)).N :=
  ⟨(i 0).val / 8, by have hN : (cfgM m (ok m)).N = 8 := N_0; have hi0 : (i 0).val < 64 := (i 0).isLt; omega⟩

theorem ptOf_val (i : S64x512x4.Idx) : (ptOf m i).val = (i 0).val / 8 := rfl

/-- Every index of the result array is in the block of the point its batch row falls in: it is the image of
    (row mod 8, s, o) under that block's placement. -/
theorem cover (i : S64x512x4.Idx) :
    ∃ t : Fin (cfgM m (ok m)).N, ((cfgM m (ok m)).win 5).flush t = true ∧ i ∈ (((cfgM m (ok m)).win 5).blk t).view.set := by
  have hi0 : (i 0).val < 64 := (i 0).isLt
  refine ⟨ptOf m i, flush0_5 (adm m (ok m)) _, ?_⟩
  obtain ⟨-, -, -, -, -, -, -, -, -, -, -, -, e0, e1, e2⟩ := idx_facts (adm m (ok m)) (ptOf m i)
  have he : (((cfgM m (ok m)).win 5).blk (ptOf m i)).view.emb
      (ix3 (⟨(i 0).val % 8, Nat.mod_lt _ (by decide)⟩ : Fin 8) (⟨(i 1).val, (i 1).isLt⟩ : Fin 512) (⟨(i 2).val, (i 2).isLt⟩ : Fin 4)) = i := by
    funext a
    apply Fin.ext
    match a with
    | ⟨0, _⟩ =>
      show ((cfg0 (adm m (ok m))).win 5).index (ptOf m i) (0 : Fin 3) * 8 + 1 * ((i 0).val % 8) = (i 0).val
      rw [e0, ptOf_val]; omega
    | ⟨1, _⟩ =>
      show ((cfg0 (adm m (ok m))).win 5).index (ptOf m i) (1 : Fin 3) * 512 + 1 * (i 1).val = (i 1).val
      rw [e1]; omega
    | ⟨2, _⟩ =>
      show ((cfg0 (adm m (ok m))).win 5).index (ptOf m i) (2 : Fin 3) * 4 + 1 * (i 2).val = (i 2).val
      rw [e2]; omega
  have hmem := (((cfgM m (ok m)).win 5).blk (ptOf m i)).view.emb_mem_set
    (ix3 (⟨(i 0).val % 8, Nat.mod_lt _ (by decide)⟩ : Fin 8) (⟨(i 1).val, (i 1).isLt⟩ : Fin 512) (⟨(i 2).val, (i 2).isLt⟩ : Fin 4))
  rw [he] at hmem
  exact hmem

/-- The result array ends holding the specification. -/
theorem final (hw : ∀ b : Fin 64, (m (((0 : Dev nD) : Thread nD τ).loc main_arg1) (ix1 b)).toNat < 10) (c : Dev nD) :
    (dats m (ok m) (hyps m hw (ok m)) 0 c).arrAt 5 (cfgM m (ok m)).N = spec m c :=
  (dats m (ok m) (hyps m hw (ok m)) 0 c).arrAt_eq_of_cover 5 (spec m c) (fun t _ => flushed_eq m hw c t) (cover m)

/-- The run, read: every weakly fair execution ends with the result array at the specification of the argument
    arrays, and those unchanged. -/
theorem run (hw : ∀ b : Fin 64, (m (((0 : Dev nD) : Thread nD τ).loc main_arg1) (ix1 b)).toNat < 10) :
    θ_run defs (onTc (τ := τ) (main (F := Ideal))) ⟨m, fun _ => 0, ρ⟩ fun r => ∀ c : Dev nD,
      r.2.mem ((c.tc : Thread nD τ).loc main_v10) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 5).trans (final m hw c),
      ((h c).1 0).trans (((dats m (ok m) (hyps m hw (ok m)) 0 c).arrAt_in 0 rfl _).trans ((A_eq m (ok m) (hyps m hw (ok m)) c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).1 4).trans (((dats m (ok m) (hyps m hw (ok m)) 0 c).arrAt_in 4 rfl _).trans ((A_eq m (ok m) (hyps m hw (ok m)) c 4).trans (V_main_arg7 m c)))⟩)
    (run_main m ρ (ok m) (hyps m hw (ok m)))

end Cert.KernelIdeal.Routing

end
-- ==== Proof.RefValue.lean ====
/-
  The reference's result is the routed two-layer network of Routed.lean.

  The reference program computes, for token (b, s), the shared half of the hidden layer from sh_w and sh_b, gathers the
  batch row's expert weight dp_w[c] and bias dp_b[c] with c = corpus[b] (a negative index wrapped by + 10, then the
  gather's own clamp into [0, 9]), computes the expert half from them, joins the two halves along the feature axis, and
  applies fc_w and fc_b. Under 0 ≤ corpus[b] < 10 the wrap and the clamp do nothing, so the gathered expert is the one
  the specification names, and each side is then the same term index by index: the same summands in the same order.
-/
import proofs.«417747_j49563922596676_3_alg».proof.Proof.Gen.ReferenceIdeal.Read
import proofs.«417747_j49563922596676_3_alg».proof.Proof.Routed
import Idealize.ShloMosaic.Lib.Pipeline.Value
import Idealize.ShloMosaic.Lib.ValueIdx
import Idealize.ShloMosaic.Lib.StableHlo.Predicate
import Idealize.ShloMosaic.PureOps.Ideal.Laws

noncomputable section

open scoped BigOperators

namespace Cert.RefValue

open Cert.ReferenceIdeal Cert.ReferenceIdeal.Read Idealize.ShloMosaic Idealize.ShloMosaic.ValueIdx

/-! ## The two gathers read at an index -/

/-- The weight gather at (b, e, h): the operand's row named by start index b, read signed and clamped into [0, 9],
    at offset (e, h). Axis 0 of the operand is collapsed and start-indexed; axes 1 and 2 are the offset axes. -/
theorem gather_w_apply {α : Type} (x : S10x768x128.Idx → α) (idx : IVec S64x1 32) (b : Fin 64) (e : Fin 768)
    (h : Fin 128) :
    Host.gather gather_S10x768x128_S64x1_S64x768x128_12_0_n_n_0_1_1768128 x idx (ix3 b e h)
      = x (ix3 (⟨min (idx (ix2 b (0 : Fin 1))).toInt.toNat 9, by omega⟩ : Fin 10) e h) := by
  unfold Host.gather
  congr 1
  funext a
  refine Fin.ext ?_
  let d := gather_S10x768x128_S64x1_S64x768x128_12_0_n_n_0_1_1768128
  have hnb : ∀ a : Fin 3, a ∉ d.operandBatchingDims := fun _ => List.not_mem_nil
  match a with
  | ⟨0, _⟩ =>
    -- the collapsed axis: the clamped start index alone
    show d.start (ix3 b e h) idx 0 + d.batchCoord (ix3 b e h) 0 + d.offCoord (ix3 b e h) 0 = _
    rw [GatherDims.batchCoord_eq_zero _ _ _ (hnb 0),
      GatherDims.offCoord_eq_zero _ _ _ (fun hk => ((GatherDims.mem_sKept _ _).mp hk).1 (List.mem_singleton.mpr rfl))]
    simp only [Nat.add_zero]
    unfold GatherDims.start
    rw [dif_pos (show (0 : Fin 3) ∈ d.startIndexMap from List.mem_singleton.mpr rfl)]
    have hsi : d.siIdx (ix3 b e h) ⟨List.idxOf (0 : Fin 3) d.startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show d.start (ix3 b e h) idx 1 + d.batchCoord (ix3 b e h) 1 + d.offCoord (ix3 b e h) 1 = _
    have hs : d.start (ix3 b e h) idx 1 = 0 := rfl
    have ho : d.offCoord (ix3 b e h) 1 = e.val := rfl
    rw [hs, GatherDims.batchCoord_eq_zero _ _ _ (hnb 1), ho]
    exact Nat.zero_add _
  | ⟨2, _⟩ =>
    show d.start (ix3 b e h) idx 2 + d.batchCoord (ix3 b e h) 2 + d.offCoord (ix3 b e h) 2 = _
    have hs : d.start (ix3 b e h) idx 2 = 0 := rfl
    have ho : d.offCoord (ix3 b e h) 2 = h.val := rfl
    rw [hs, GatherDims.batchCoord_eq_zero _ _ _ (hnb 2), ho]
    exact Nat.zero_add _

/-- The bias gather at (b, h): the operand's row named by start index b, read signed and clamped into [0, 9], at
    offset h. -/
theorem gather_b_apply {α : Type} (x : S10x128.Idx → α) (idx : IVec S64x1 32) (b : Fin 64) (h : Fin 128) :
    Host.gather gather_S10x128_S64x1_S64x128_1_0_n_n_0_1_1128 x idx (ix2 b h)
      = x (ix2 (⟨min (idx (ix2 b (0 : Fin 1))).toInt.toNat 9, by omega⟩ : Fin 10) h) := by
  unfold Host.gather
  congr 1
  funext a
  refine Fin.ext ?_
  let d := gather_S10x128_S64x1_S64x128_1_0_n_n_0_1_1128
  have hnb : ∀ a : Fin 2, a ∉ d.operandBatchingDims := fun _ => List.not_mem_nil
  match a with
  | ⟨0, _⟩ =>
    show d.start (ix2 b h) idx 0 + d.batchCoord (ix2 b h) 0 + d.offCoord (ix2 b h) 0 = _
    rw [GatherDims.batchCoord_eq_zero _ _ _ (hnb 0),
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ d.startIndexMap from List.mem_singleton.mpr rfl)]
    have hsi : d.siIdx (ix2 b h) ⟨List.idxOf (0 : Fin 2) d.startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show d.start (ix2 b h) idx 1 + d.batchCoord (ix2 b h) 1 + d.offCoord (ix2 b h) 1 = _
    have hs : d.start (ix2 b h) idx 1 = 0 := rfl
    have ho : d.offCoord (ix2 b h) 1 = h.val := rfl
    rw [hs, GatherDims.batchCoord_eq_zero _ _ _ (hnb 1), ho]
    exact Nat.zero_add _

/-! ## The start index: under 0 ≤ corpus[b] < 10 the wrap of a negative index does nothing -/

/-- A word below 10 is not negative: the signed compare with 0 is false, so the select keeps the word. -/
theorem wrap_eq (w : BitVec 32) (hw : w.toNat < 10) :
    Scalar.select (IntOp.cmpi .slt w 0#32) (IntOp.addi w 10#32) w = w := by
  have h0 : IntOp.cmpi .slt w 0#32 = 0#1 := eq_zero_of_ne_one fun h1 => by
    have := (StableHlo.Predicate.slt_iff_toNat (a := w) (b := 0#32) (by omega) (by decide)).mp h1
    simp at this
  rw [h0, select_zero]

/-- The start index both gathers read for batch row b is corpus[b] (first copy of the wrap: operations %5 … %10). -/
theorem start_w_eq (x1 : (⟨S64, .i32⟩ : BufTy).Contents (Elt Ideal)) (b : Fin 64) (hb : (x1 (ix1 b)).toNat < 10) :
    val_main_v10 (F := Ideal) x1 (ix2 b (0 : Fin 1)) = x1 (ix1 b) := by
  have hi : idx_main_v10 (ix2 b (0 : Fin 1)) = ix1 b := funext fun a => match a with | ⟨0, _⟩ => rfl
  rw [val_main_v10_apply, hi, val_main_v9_apply, val_main_v6_apply, val_main_v8_apply, val_main_v5_apply,
    val_main_c_apply, val_main_v7_apply, val_main_c_0_apply]
  exact wrap_eq _ hb

/-- The same for the second copy of the wrap (operations %12 … %17). -/
theorem start_b_eq (x1 : (⟨S64, .i32⟩ : BufTy).Contents (Elt Ideal)) (b : Fin 64) (hb : (x1 (ix1 b)).toNat < 10) :
    val_main_v17 (F := Ideal) x1 (ix2 b (0 : Fin 1)) = x1 (ix1 b) := by
  have hi : idx_main_v17 (ix2 b (0 : Fin 1)) = ix1 b := funext fun a => match a with | ⟨0, _⟩ => rfl
  rw [val_main_v17_apply, hi, val_main_v16_apply, val_main_v13_apply, val_main_v15_apply, val_main_v12_apply,
    val_main_c_1_apply, val_main_v14_apply, val_main_c_2_apply]
  exact wrap_eq _ hb

/-- The gathered weight of batch row b is the weight of the expert corpus[b] names. -/
theorem v11_apply (x1 : (⟨S64, .i32⟩ : BufTy).Contents (Elt Ideal))
    (x2 : (⟨S10x768x128, .f32⟩ : BufTy).Contents (Elt Ideal)) (b : Fin 64) (e : Fin 768) (h : Fin 128)
    (hb : (x1 (ix1 b)).toNat < 10) :
    val_main_v11 (F := Ideal) x1 x2 (ix3 b e h) = x2 (ix3 (Cert.Routed.expert (x1 (ix1 b))) e h) := by
  unfold val_main_v11
  rw [gather_w_apply]
  refine congrArg (fun c => x2 (ix3 c e h)) ?_
  refine Fin.ext ?_
  show min (val_main_v10 (F := Ideal) x1 (ix2 b (0 : Fin 1))).toInt.toNat 9 = min (x1 (ix1 b)).toNat 9
  rw [start_w_eq x1 b hb, StableHlo.Predicate.toInt_eq_toNat_of_lt (a := x1 (ix1 b)) (by omega)]
  rfl

/-- The gathered bias of batch row b is the bias of the expert corpus[b] names. -/
theorem v18_apply (x1 : (⟨S64, .i32⟩ : BufTy).Contents (Elt Ideal))
    (x3 : (⟨S10x128, .f32⟩ : BufTy).Contents (Elt Ideal)) (b : Fin 64) (h : Fin 128)
    (hb : (x1 (ix1 b)).toNat < 10) :
    val_main_v18 (F := Ideal) x1 x3 (ix2 b h) = x3 (ix2 (Cert.Routed.expert (x1 (ix1 b))) h) := by
  unfold val_main_v18
  rw [gather_b_apply]
  refine congrArg (fun c => x3 (ix2 c h)) ?_
  refine Fin.ext ?_
  show min (val_main_v17 (F := Ideal) x1 (ix2 b (0 : Fin 1))).toInt.toNat 9 = min (x1 (ix1 b)).toNat 9
  rw [start_b_eq x1 b hb, StableHlo.Predicate.toInt_eq_toNat_of_lt (a := x1 (ix1 b)) (by omega)]
  rfl

/-! ## The two halves of the hidden layer at an index -/

/-- The shared half: unit k < 128 of token (b, s) is relu of the token against column k of sh_w plus sh_b[k]. -/
theorem shared_apply (x0 : (⟨S64x512x768, .f32⟩ : BufTy).Contents (Elt Ideal))
    (x4 : (⟨S768x128, .f32⟩ : BufTy).Contents (Elt Ideal)) (x5 : (⟨S128, .f32⟩ : BufTy).Contents (Elt Ideal))
    (b : Fin 64) (s : Fin 512) (k : Fin 128) :
    val_main_v4 (F := Ideal) x0 x4 x5 (ix3 b s k)
      = max ((∑ e : Fin 768, x0 (ix3 b s e) * x4 (ix2 e k)) + x5 (ix1 k)) 0 := by
  have hl : ∀ e : Fin 768, lidx_main_v0 (ix3 b s k) e = ix3 b s e := fun e => funext fun a =>
    match a with | ⟨0, _⟩ => rfl | ⟨1, _⟩ => rfl | ⟨2, _⟩ => rfl
  have hr : ∀ e : Fin 768, ridx_main_v0 (ix3 b s k) e = ix2 e k := fun e => funext fun a =>
    match a with | ⟨0, _⟩ => rfl | ⟨1, _⟩ => rfl
  have hbias : idx_main_v1 (idx_main_v2 (ix3 b s k)) = ix1 k := funext fun a => match a with | ⟨0, _⟩ => rfl
  rw [val_main_v4_apply, val_main_v3_apply, val_main_v0_apply, val_main_v2_apply, val_main_v1_apply,
    val_main_call0_v0_apply, val_main_call0_cst_apply, hbias]
  simp only [hl, hr]
  rw [Ideal.maximumf_def, Ideal.addf_def, Ideal.ofBits_def, Ideal.ofBits_zero_f32]

/-- The expert half: unit k < 128 of it, for token (b, s), is relu of the token against column k of the weight of
    the expert corpus[b] names plus that expert's bias at k. -/
theorem expert_apply (x0 : (⟨S64x512x768, .f32⟩ : BufTy).Contents (Elt Ideal))
    (x1 : (⟨S64, .i32⟩ : BufTy).Contents (Elt Ideal)) (x2 : (⟨S10x768x128, .f32⟩ : BufTy).Contents (Elt Ideal))
    (x3 : (⟨S10x128, .f32⟩ : BufTy).Contents (Elt Ideal)) (b : Fin 64) (s : Fin 512) (k : Fin 128)
    (hb : (x1 (ix1 b)).toNat < 10) :
    val_main_v23 (F := Ideal) x0 x1 x2 x3 (ix3 b s k)
      = max ((∑ e : Fin 768, x0 (ix3 b s e) * x2 (ix3 (Cert.Routed.expert (x1 (ix1 b))) e k))
          + x3 (ix2 (Cert.Routed.expert (x1 (ix1 b))) k)) 0 := by
  have hl : ∀ e : Fin 768, lidx_main_v20 (ix3 b s k) e = ix3 b s e := fun e => funext fun a =>
    match a with | ⟨0, _⟩ => rfl | ⟨1, _⟩ => rfl | ⟨2, _⟩ => rfl
  have hr : ∀ e : Fin 768, ridx_main_v20 (ix3 b s k) e = ix3 b e k := fun e => funext fun a =>
    match a with | ⟨0, _⟩ => rfl | ⟨1, _⟩ => rfl | ⟨2, _⟩ => rfl
  have hbias : idx_main_v19 (idx_main_v21 (ix3 b s k)) = ix2 b k := funext fun a =>
    match a with | ⟨0, _⟩ => rfl | ⟨1, _⟩ => rfl
  rw [val_main_v23_apply, val_main_v22_apply, val_main_v20_apply, val_main_v21_apply, val_main_v19_apply,
    val_main_call1_v0_apply, val_main_call1_cst_apply, hbias, v18_apply x1 x3 b k hb]
  simp only [hl, hr, v11_apply x1 x2 b _ k hb]
  rw [Ideal.maximumf_def, Ideal.addf_def, Ideal.ofBits_def, Ideal.ofBits_zero_f32]

/-! ## The joined hidden layer and the result -/

/-- The concatenation at (b, s, k), k < 256, is hidden unit k of the specification: the shared half for k < 128, the
    expert half at k − 128 otherwise. -/
theorem hidden_apply (x0 : (⟨S64x512x768, .f32⟩ : BufTy).Contents (Elt Ideal))
    (x1 : (⟨S64, .i32⟩ : BufTy).Contents (Elt Ideal)) (x2 : (⟨S10x768x128, .f32⟩ : BufTy).Contents (Elt Ideal))
    (x3 : (⟨S10x128, .f32⟩ : BufTy).Contents (Elt Ideal)) (x4 : (⟨S768x128, .f32⟩ : BufTy).Contents (Elt Ideal))
    (x5 : (⟨S128, .f32⟩ : BufTy).Contents (Elt Ideal)) (b : Fin 64) (s : Fin 512) (k : Fin 256)
    (hb : (x1 (ix1 b)).toNat < 10) :
    val_main_v24 (F := Ideal) x0 x1 x2 x3 x4 x5 (ix3 b s k)
      = Cert.Routed.hidden x0 x2 x3 x4 x5 (Cert.Routed.expert (x1 (ix1 b))) b s k := by
  unfold val_main_v24 Cert.Routed.hidden Cert.Routed.wcol Cert.Routed.bcol
  by_cases hk : k.val < 128
  · rw [concatenate_pair_apply_left (t := S64x512x256) (s₁ := S64x512x128) (s₂ := S64x512x128) (2 : Fin 3) _ _ _
      (ix3 b s k) rfl (ix3 b s (⟨k.val, hk⟩ : Fin 128))
      (fun a => match a with | ⟨0, _⟩ => rfl | ⟨1, _⟩ => rfl | ⟨2, _⟩ => rfl)]
    rw [shared_apply]
    simp only [dif_pos hk]
  · rw [concatenate_pair_apply_right (t := S64x512x256) (s₁ := S64x512x128) (s₂ := S64x512x128) (2 : Fin 3) _ _ _
      (ix3 b s k) rfl rfl
      (ix3 b s (⟨k.val - 128, by omega⟩ : Fin 128))
      (fun a => match a with
        | ⟨0, _⟩ => fun _ => rfl
        | ⟨1, _⟩ => fun _ => rfl
        | ⟨2, _⟩ => fun hne => absurd rfl hne)
      (show k.val - 128 + 128 = k.val by omega)]
    rw [expert_apply x0 x1 x2 x3 b s _ hb]
    simp only [dif_neg hk]

/-- The reference's result is the specification. -/
theorem result_eq
    (x0 : (⟨S64x512x768, .f32⟩ : BufTy).Contents (Elt Ideal)) (x1 : (⟨S64, .i32⟩ : BufTy).Contents (Elt Ideal))
    (x2 : (⟨S10x768x128, .f32⟩ : BufTy).Contents (Elt Ideal)) (x3 : (⟨S10x128, .f32⟩ : BufTy).Contents (Elt Ideal))
    (x4 : (⟨S768x128, .f32⟩ : BufTy).Contents (Elt Ideal)) (x5 : (⟨S128, .f32⟩ : BufTy).Contents (Elt Ideal))
    (x6 : (⟨S256x4, .f32⟩ : BufTy).Contents (Elt Ideal)) (x7 : (⟨S4, .f32⟩ : BufTy).Contents (Elt Ideal))
    (hx1 : ∀ b : Fin 64, (x1 (ix1 b)).toNat < 10) :
    val_main_v28 (F := Ideal) x0 x1 x2 x3 x4 x5 x6 x7 = Cert.Routed.G x0 x1 x2 x3 x4 x5 x6 x7 := by
  funext i
  obtain ⟨b, s, o, rfl⟩ : ∃ (b : Fin 64) (s : Fin 512) (o : Fin 4), i = ix3 b s o := ⟨i 0, i 1, i 2, eq_ix3 i⟩
  have hl : ∀ k : Fin 256, lidx_main_v25 (ix3 b s o) k = ix3 b s k := fun k => funext fun a =>
    match a with | ⟨0, _⟩ => rfl | ⟨1, _⟩ => rfl | ⟨2, _⟩ => rfl
  have hr : ∀ k : Fin 256, ridx_main_v25 (ix3 b s o) k = ix2 k o := fun k => funext fun a =>
    match a with | ⟨0, _⟩ => rfl | ⟨1, _⟩ => rfl
  have hbias : idx_main_v26 (idx_main_v27 (ix3 b s o)) = ix1 o := funext fun a => match a with | ⟨0, _⟩ => rfl
  rw [Cert.Routed.G_ix3, val_main_v28_apply, val_main_v25_apply, val_main_v27_apply, val_main_v26_apply, hbias,
    Ideal.addf_def]
  unfold Cert.Routed.Gat
  simp only [hl, hr, hidden_apply x0 x1 x2 x3 x4 x5 b s _ (hx1 b)]

end Cert.RefValue

end
-- ==== Proof.lean ====
/-
  The routed projection layer: the kernel against its reference, over the extended reals.

  Every token of batch row b is projected by a shared weight and by the weight of the expert corpus[b] names, the two
  halves are rectified and concatenated, and a last 256 × 4 layer is applied. The reference gathers the expert's
  weight per batch row and computes the two halves separately; the kernel concatenates the shared and the experts'
  weights column-wise once, clamps corpus into [0, 9], and computes both halves by one product per batch row, the expert
  read from a table in scalar memory.
  The statement is made under the precondition that every float input is finite and 0 ≤ corpus[b] < 10 for every batch
  row: the corpus words index an axis of extent 10. (At a word in [−9, −1] the reference wraps the index around and
  the kernel clamps it to 0, and the two results differ.) Under it the clamp does nothing, the table IS the corpus,
  the frames' side conditions hold (every loaded word is a valid index on the experts' axis), and both programs
  compute Routed.G of the argument arrays: the kernel by KernelValue.lean (run), the reference by RefValue.lean
  (result_eq). No algebraic law is needed beyond reading both sides at an index: the sums have the same summands in
  the same order; finiteness is not used.
-/
import proofs.«417747_j49563922596676_3_alg».proof.Defs
import proofs.«417747_j49563922596676_3_alg».proof.Proof.Gen.Kernel
import proofs.«417747_j49563922596676_3_alg».proof.Proof.Gen.Kernel.Skeleton
import proofs.«417747_j49563922596676_3_alg».proof.Proof.Gen.Kernel.Launch
import proofs.«417747_j49563922596676_3_alg».proof.Proof.Gen.Kernel.Points
import proofs.«417747_j49563922596676_3_alg».proof.Proof.Gen.Kernel.Frame
import proofs.«417747_j49563922596676_3_alg».proof.Proof.Gen.KernelIdeal
import proofs.«417747_j49563922596676_3_alg».proof.Proof.Gen.KernelIdeal.Skeleton
import proofs.«417747_j49563922596676_3_alg».proof.Proof.Gen.KernelIdeal.Launch
import proofs.«417747_j49563922596676_3_alg».proof.Proof.Gen.KernelIdeal.Points
import proofs.«417747_j49563922596676_3_alg».proof.Proof.Gen.KernelIdeal.Frame
import proofs.«417747_j49563922596676_3_alg».proof.Proof.Gen.ReferenceIdeal
import proofs.«417747_j49563922596676_3_alg».proof.Proof.Gen.ReferenceIdeal.Run
import proofs.«417747_j49563922596676_3_alg».proof.Proof.Gen.ReferenceIdeal.Read
import proofs.«417747_j49563922596676_3_alg».proof.Proof.Gen.Pre_finite_inputs
import proofs.«417747_j49563922596676_3_alg».proof.Proof.PreWords
import proofs.«417747_j49563922596676_3_alg».proof.Proof.KernelTable
import proofs.«417747_j49563922596676_3_alg».proof.Proof.KernelTableBits
import proofs.«417747_j49563922596676_3_alg».proof.Proof.KernelValue
import proofs.«417747_j49563922596676_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments alone: the table holds valid expert indices because the
    precondition bounds the corpus words. -/
theorem frame_p : Cert.frame_Kernel := fun m ρ hpre =>
  Cert.Kernel.Gen.frame m ρ (Cert.Kernel.Table.ok m)
    (Cert.Kernel.Table.hyps m (fun b => Cert.PreWords.corpus_lt _ _ _ _ _ _ _ _ (hpre 0) b) (Cert.Kernel.Table.ok m))

/-- The same of the idealized kernel. -/
theorem frame_pi : Cert.frame_KernelIdeal := fun m ρ hpre =>
  Cert.KernelIdeal.Gen.frame m ρ (Cert.KernelIdeal.Table.ok m)
    (Cert.KernelIdeal.Table.hyps m (fun b => Cert.PreWords.corpus_lt _ _ _ _ _ _ _ _ (hpre 0) b) (Cert.KernelIdeal.Table.ok m))

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification of the (agreeing) argument arrays in their result. -/
theorem algebraic : Cert.algebraic_KernelIdeal_ReferenceIdeal := by
  intro m ρ m' ρ' hpre hagree
  have hw : ∀ b : Fin 64, (m (((0 : Dev Cert.KernelIdeal.nD) : Thread Cert.KernelIdeal.nD Cert.KernelIdeal.τ).loc Cert.KernelIdeal.main_arg1) (ix1 b)).toNat < 10 :=
    fun b => Cert.PreWords.corpus_lt _ _ _ _ _ _ _ _ (hpre 0) b
  refine ⟨fun c => Cert.KernelIdeal.Routing.spec m c, Cert.KernelIdeal.Routing.run m ρ hw, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v28_eq, (hagree 0).1, (hagree 0).2.1, (hagree 0).2.2.1, (hagree 0).2.2.2.1,
    (hagree 0).2.2.2.2.1, (hagree 0).2.2.2.2.2.1, (hagree 0).2.2.2.2.2.2.1, (hagree 0).2.2.2.2.2.2.2]
  exact Cert.RefValue.result_eq _ _ _ _ _ _ _ _ hw

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
